-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x4096 : Shape := ⟨2, ![8192, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S8192x4096 .f32) (main_arg8 : FVec F S4096 .f32) (main_arg9 : FVec F S8192x4096 .f32) (main_arg10 : FVec F S4096 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8192x4096 .f32 := Host.absf main_arg5
  let main_cst_8 : FVec F S_ .f32 := constant S_ .f32 0x7F800000#32
  let main_v25 : FVec F S8192x4096 .f32 := broadcastInDim S8192x4096 ![] bcast_S_S8192x4096 main_cst_8
  let main_v26 : IVec S8192x4096 1 := cmpf .olt main_v24 main_v25
  let main_c_9 : IVec S_ 1 := constantI S_ 1 1#1
  let main_v27 : IVec S_ 1 := (fun x v => Host.reduce IntOp.andi x v reducesTo_S8192x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x4096 .f32) (main_arg1 : FVec F S4096x4096 .f32) (main_arg2 : FVec F S4096x4096 .f32) (main_arg3 : FVec F S8192x4096 .f32) (main_arg4 : FVec F S4096 .f32) (main_arg5 : FVec F S8192x4096 .f32) (main_arg6 : FVec F S4096 .f32) (main_arg7 : FVec F S8192x4096 .f32) (main_arg8 : FVec F S4096 .f32) (main_arg9 : FVec F S8192x4096 .f32) (main_arg10 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_v13 main_v16
-- ==== Kernel.lean ====
abbrev S4096x4096 : Shape := ⟨2, ![4096, 4096]⟩
abbrev S8192x4096 : Shape := ⟨2, ![8192, 4096]⟩
abbrev S4096 : Shape := ⟨1, ![4096]⟩
abbrev S4096x8192 : Shape := ⟨2, ![4096, 8192]⟩
abbrev S512x2048 : Shape := ⟨2, ![512, 2048]⟩
abbrev S2048x512 : Shape := ⟨2, ![2048, 512]⟩
abbrev S512 : Shape := ⟨1, ![512]⟩
abbrev S512x512 : Shape := ⟨2, ![512, 512]⟩
abbrev S1x512 : Shape := ⟨2, ![1, 512]⟩

abbrev nBuf : Space → Nat
  | .hbm => 19
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S4096x8192, .f32⟩
  | .hbm, ⟨12, _⟩ => ⟨S4096x8192, .bf16⟩
  | .hbm, ⟨13, _⟩ => ⟨S8192x4096, .bf16⟩
  | .hbm, ⟨14, _⟩ => ⟨S8192x4096, .bf16⟩
  | .hbm, ⟨15, _⟩ => ⟨S8192x4096, .bf16⟩
  | .hbm, ⟨16, _⟩ => ⟨S8192x4096, .bf16⟩
  | .hbm, ⟨17, _⟩ => ⟨S4096x4096, .f32⟩
  | .hbm, ⟨18, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  concatenates_S4096x4096_S4096x4096_S4096x8192_d1 : Shape.Concatenates [S4096x4096, S4096x4096] S4096x8192 1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x8192.size a
  hwx0_0 : ∀ i : grid0.Coords, EltTy.bits .bf16 = 32 ∨ (Rect.block (s := S4096x8192) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x4096.size a
  hwx0_1 : ∀ i : grid0.Coords, EltTy.bits .bf16 = 32 ∨ (Rect.block (s := S8192x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x4096.size a
  hwx0_2 : ∀ i : grid0.Coords, EltTy.bits .bf16 = 32 ∨ (Rect.block (s := S8192x4096) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .bf16 = 32 ∨ (Rect.block (s := S8192x4096) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x4096.size a
  hwx0_4 : ∀ i : grid0.Coords, EltTy.bits .bf16 = 32 ∨ (Rect.block (s := S8192x4096) S2048x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .f32 = 32 ∨ (Rect.block (s := S4096) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S4096.size a
  hwx0_6 : ∀ i : grid0.Coords, EltTy.bits .f32 = 32 ∨ (Rect.block (s := S4096) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S4096.size a
  hwx0_7 : ∀ i : grid0.Coords, EltTy.bits .f32 = 32 ∨ (Rect.block (s := S4096) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S4096.size a
  hwx0_8 : ∀ i : grid0.Coords, EltTy.bits .f32 = 32 ∨ (Rect.block (s := S4096) S512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .f32 = 32 ∨ (Rect.block (s := S4096x4096) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S4096x4096.size a
  hwx0_11 : ∀ i : grid0.Coords, EltTy.bits .f32 = 32 ∨ (Rect.block (s := S4096x4096) S512x512.size (cc0_transform_11 i) (hinb0_11 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x4096 : Shape := ⟨2, ![4096, 4096]⟩
abbrev S8192x4096 : Shape := ⟨2, ![8192, 4096]⟩
abbrev S4096 : Shape := ⟨1, ![4096]⟩
abbrev S4096x8192 : Shape := ⟨2, ![4096, 8192]⟩
abbrev S8192x16384 : Shape := ⟨2, ![8192, 16384]⟩
abbrev S16384 : Shape := ⟨1, ![16384]⟩
abbrev S4096x16384 : Shape := ⟨2, ![4096, 16384]⟩
abbrev S1x16384 : Shape := ⟨2, ![1, 16384]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S4096, .f32⟩
  | .hbm, ⟨9, _⟩ => ⟨S8192x4096, .f32⟩
  | .hbm, ⟨10, _⟩ => ⟨S4096, .f32⟩
  | .hbm, ⟨11, _⟩ => ⟨S4096x8192, .f32⟩
  | .hbm, ⟨12, _⟩ => ⟨S8192x16384, .f32⟩
  | .hbm, ⟨13, _⟩ => ⟨S16384, .f32⟩
  | .hbm, ⟨14, _⟩ => ⟨S4096x16384, .f32⟩
  | .hbm, ⟨15, _⟩ => ⟨S1x16384, .f32⟩
  | .hbm, ⟨16, _⟩ => ⟨S4096x16384, .f32⟩
  | .hbm, ⟨17, _⟩ => ⟨S4096x16384, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x4096_S4096x4096_S4096x8192_d1 : Shape.Concatenates [S4096x4096, S4096x4096] S4096x8192 1
  concatenates_S8192x4096_S8192x4096_S8192x4096_S8192x4096_S8192x16384_d1 : Shape.Concatenates [S8192x4096, S8192x4096, S8192x4096, S8192x4096] S8192x16384 1
  concatenates_S4096_S4096_S4096_S4096_S16384_d0 : Shape.Concatenates [S4096, S4096, S4096, S4096] S16384 0
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S4096x16384_S4096x4096_0_0 : S4096x16384.Slices ![0, 0] S4096x4096
  slices_S4096x16384_S4096x4096_0_4096 : S4096x16384.Slices ![0, 4096] S4096x4096
  slices_S4096x16384_S4096x4096_0_8192 : S4096x16384.Slices ![0, 8192] S4096x4096
  slices_S4096x16384_S4096x4096_0_12288 : S4096x16384.Slices ![0, 12288] S4096x4096
  bcast_S_S4096x4096 : S_.BroadcastsInDim S4096x4096 (![] : Fin 0 → Fin S4096x4096.rank)
  dot_S4096x8192_S8192x16384_S4096x16384_1_0_0_1_n_n_wf : DotDims.WF S4096x8192 S8192x16384 S4096x16384 [1] [0] [0] [1] [] []

variable [Facts₀]

def dot_S4096x8192_S8192x16384_S4096x16384_1_0_0_1_n_n : DotDims S4096x8192 S8192x16384 S4096x16384 where
  lhsContracting := [1]
  rhsContracting := [0]
  lhsNonContracting := [0]
  rhsNonContracting := [1]
  lhsBatch := []
  rhsBatch := []
  wf := dot_S4096x8192_S8192x16384_S4096x16384_1_0_0_1_n_n_wf

class Facts : Prop extends Facts₀ where

variable [Facts]
-- ==== Proof.Names.lean ====
/-
  Names for what the kernel reads at a grid point, each at its literal shape: the block of the joined activation,
  the four weight blocks, the four bias blocks and the cell-state block, and the four gate accumulators as the point
  leaves them.
-/
import proofs.«175709_j704374636891_1_alg».proof.Proof.Gen.KernelIdeal.Frame

noncomputable section

namespace Cert.KernelIdeal.Nm

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The [512, 2048] block of the joined activation at point t: rows of the point's row block, columns of its step. -/
abbrev xb (c : Dev nD) (t : Fin cfg0.N) : Vec F S512x2048 .bf16 := iblk m c 0 t
/-- The [2048, 512] block of the forget gate's weights at point t. -/
abbrev wfb (c : Dev nD) (t : Fin cfg0.N) : Vec F S2048x512 .bf16 := iblk m c 1 t
/-- The [2048, 512] block of the candidate gate's weights at point t. -/
abbrev wgb (c : Dev nD) (t : Fin cfg0.N) : Vec F S2048x512 .bf16 := iblk m c 2 t
/-- The [2048, 512] block of the input gate's weights at point t. -/
abbrev wib (c : Dev nD) (t : Fin cfg0.N) : Vec F S2048x512 .bf16 := iblk m c 3 t
/-- The [2048, 512] block of the output gate's weights at point t. -/
abbrev wob (c : Dev nD) (t : Fin cfg0.N) : Vec F S2048x512 .bf16 := iblk m c 4 t
/-- The [512] block of the forget gate's bias at point t. -/
abbrev bfb (c : Dev nD) (t : Fin cfg0.N) : Vec F S512 .f32 := iblk m c 5 t
/-- The [512] block of the candidate gate's bias at point t. -/
abbrev bgb (c : Dev nD) (t : Fin cfg0.N) : Vec F S512 .f32 := iblk m c 6 t
/-- The [512] block of the input gate's bias at point t. -/
abbrev bib (c : Dev nD) (t : Fin cfg0.N) : Vec F S512 .f32 := iblk m c 7 t
/-- The [512] block of the output gate's bias at point t. -/
abbrev bob (c : Dev nD) (t : Fin cfg0.N) : Vec F S512 .f32 := iblk m c 8 t
/-- The [512, 512] block of the old cell state at point t. -/
abbrev cb (c : Dev nD) (t : Fin cfg0.N) : Vec F S512x512 .f32 := iblk m c 9 t

/-- The forget gate's accumulator after point n. -/
abbrev acc0 (c : Dev nD) (n : Nat) (h : n < cfg0.N) : Vec F S512x512 .f32 := (outsAt0 m c n h).2.2.1
/-- The candidate gate's accumulator after point n. -/
abbrev acc1 (c : Dev nD) (n : Nat) (h : n < cfg0.N) : Vec F S512x512 .f32 := (outsAt0 m c n h).2.2.2.1
/-- The input gate's accumulator after point n. -/
abbrev acc2 (c : Dev nD) (n : Nat) (h : n < cfg0.N) : Vec F S512x512 .f32 := (outsAt0 m c n h).2.2.2.2.1
/-- The output gate's accumulator after point n. -/
abbrev acc3 (c : Dev nD) (n : Nat) (h : n < cfg0.N) : Vec F S512x512 .f32 := (outsAt0 m c n h).2.2.2.2.2

end Cert.KernelIdeal.Nm

end
-- ==== Proof.Pieces.lean ====
/-
  What each grid point leaves in the four gate accumulators, and what the last step of a run writes to the two
  results, as the kernel's own arithmetic over the point's blocks.

  At the first step of a run (point number ≡ 0 mod 4) an accumulator is one accumulation step over zero; at every
  later step it is one accumulation step over what the point before left. At the last step (≡ 3 mod 4) the block
  written to the new cell state and the block written to the new hidden state are the epilogue of the four
  accumulators just updated, the four bias blocks and the old cell state's block.
-/
import proofs.«175709_j704374636891_1_alg».proof.Proof.Gen.KernelIdeal.Value
import proofs.«175709_j704374636891_1_alg».proof.Proof.Names

noncomputable section

namespace Cert.KernelIdeal.Pieces

open Cert.KernelIdeal Cert.KernelIdeal.Gen Cert.KernelIdeal.Nm Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## What each control case leaves in each accumulator and each result, as the arithmetic of the blocks it read

  Every store of the kernel writes a whole block at offset zero, and every load reads a whole block at offset zero, so
  the contents a case leaves are the payload of the last store, over the blocks themselves. -/

/-- The zero offsets of a rank-2 block, as the constant function. -/
private theorem hz : (![0, 0] : Fin 2 → Nat) = fun _ => 0 := funext fun a => by fin_cases a <;> rfl
/-- The zero offset of a rank-1 block, as the constant function. -/
private theorem hz1 : (![0] : Fin 1 → Nat) = fun _ => 0 := funext fun a => by fin_cases a; rfl

/-- At a run's first step the forget gate's accumulator is zeroed and then read back by the accumulation step: what
    the step leaves is one accumulation over the zero block. -/
private theorem pA0 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay9 x0 k0_pay4 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a middle step of a run the forget gate's accumulator is stored once, whole: one accumulation over what it held. -/
private theorem pB0 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay9 x0 xs0 x1 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a last step of a run the forget gate's accumulator is stored once, whole: one accumulation over what it held. -/
private theorem pC0 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay9 x0 xs0 x1 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a run's first step the candidate gate's accumulator is zeroed and then read back by the accumulation step: what
    the step leaves is one accumulation over the zero block. -/
private theorem pA1 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay10 x0 k0_pay5 x2 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a middle step of a run the candidate gate's accumulator is stored once, whole: one accumulation over what it held. -/
private theorem pB1 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay10 x0 xs1 x2 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a last step of a run the candidate gate's accumulator is stored once, whole: one accumulation over what it held. -/
private theorem pC1 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay10 x0 xs1 x2 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a run's first step the input gate's accumulator is zeroed and then read back by the accumulation step: what
    the step leaves is one accumulation over the zero block. -/
private theorem pA2 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay11 x0 k0_pay6 x3 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a middle step of a run the input gate's accumulator is stored once, whole: one accumulation over what it held. -/
private theorem pB2 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 xs2 x3 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a last step of a run the input gate's accumulator is stored once, whole: one accumulation over what it held. -/
private theorem pC2 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay11 x0 xs2 x3 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a run's first step the output gate's accumulator is zeroed and then read back by the accumulation step: what
    the step leaves is one accumulation over the zero block. -/
private theorem pA3 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay1 (k0_pay8 x0) k0_pay7 x4 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a middle step of a run the output gate's accumulator is stored once, whole: one accumulation over what it held. -/
private theorem pB3 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : ¬cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay8 x0) xs3 x4 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a last step of a run the output gate's accumulator is stored once, whole: one accumulation over what it held. -/
private theorem pC3 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 (k0_pay8 x0) xs3 x4 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S512x2048) hz, View.ld_unit_zero (S := S2048x512) hz, View.ld_unit_zero (S := S512x512) hz]

/-- At a run's last step the new cell state's block is stored once, whole: the epilogue over the three accumulators just
    updated (each read back after its store), the three bias blocks and the old cell state's block. -/
private theorem pC10 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 (k0_pay9 x0 xs0 x1) x5 (k0_pay10 x0 xs1 x2) x6 (k0_pay11 x0 xs2 x3) x7 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.readCov_unit_zero (S := S512x512) _ hz, View.ld_unit_zero (S := S512x2048) hz, View.ld_unit_zero (S := S2048x512) hz, View.ld_unit_zero (S := S512x512) hz, View.ld_unit_zero (S := S512) hz1]

/-- At a run's last step the new hidden state's block is stored once, whole: the epilogue over the four accumulators just
    updated, the four bias blocks and the old cell state's block. -/
private theorem pC11 (c : Dev nD) (i : grid0.Coords) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (hc0 : ¬cond0_0 i) (hc1 : cond0_1 i)
    (x0 : Vec F S512x2048 .bf16) (x1 : Vec F S2048x512 .bf16) (x2 : Vec F S2048x512 .bf16) (x3 : Vec F S2048x512 .bf16) (x4 : Vec F S2048x512 .bf16) (x5 : Vec F S512 .f32) (x6 : Vec F S512 .f32) (x7 : Vec F S512 .f32) (x8 : Vec F S512 .f32) (x9 : Vec F S512x512 .f32) (xs0 : Vec F S512x512 .f32) (xs1 : Vec F S512x512 .f32) (xs2 : Vec F S512x512 .f32) (xs3 : Vec F S512x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay3 (k0_pay9 x0 xs0 x1) x5 (k0_pay10 x0 xs1 x2) x6 (k0_pay11 x0 xs2 x3) x7 (k0_pay1 (k0_pay8 x0) xs3 x4) x8 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.readCov_unit_zero (S := S512x512) _ hz, View.ld_unit_zero (S := S512x2048) hz, View.ld_unit_zero (S := S2048x512) hz, View.ld_unit_zero (S := S512x512) hz, View.ld_unit_zero (S := S512) hz1]

/-! ## The forget gate's accumulator -/

theorem acc0_reset (c : Dev nD) (n : Nat) (hb : n < cfg0.N) (h0 : n % 4 = 0) (a : Vec F S512x512 .f32) :
    Value.scAt0_0 m c n hb a = k0_pay9 (xb m c ⟨n, hb⟩) k0_pay4 (wfb m c ⟨n, hb⟩) := by
  have h1 : ¬ n % 4 = 3 := by omega
  unfold Value.scAt0_0
  rw [dif_pos h0, dif_neg h1]
  exact pA0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h))
    (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N))

theorem acc0_step (c : Dev nD) (n : Nat) (hb : n < cfg0.N) (h0 : ¬ n % 4 = 0) (a : Vec F S512x512 .f32) :
    Value.scAt0_0 m c n hb a = k0_pay9 (xb m c ⟨n, hb⟩) a (wfb m c ⟨n, hb⟩) := by
  unfold Value.scAt0_0
  rw [dif_neg h0]
  by_cases h1 : n % 4 = 3
  · rw [dif_pos h1]
    exact pC0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1)
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) a (acc1 m c (n - 1) (Nat.lt_of_le_of_lt (Nat.sub_le _ _) hb)) (acc2 m c (n - 1) (Nat.lt_of_le_of_lt (Nat.sub_le _ _) hb)) (acc3 m c (n - 1) (Nat.lt_of_le_of_lt (Nat.sub_le _ _) hb))
  · rw [dif_neg h1]
    exact pB0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h))
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) a (acc1 m c (n - 1) (Nat.lt_of_le_of_lt (Nat.sub_le _ _) hb)) (acc2 m c (n - 1) (Nat.lt_of_le_of_lt (Nat.sub_le _ _) hb)) (acc3 m c (n - 1) (Nat.lt_of_le_of_lt (Nat.sub_le _ _) hb))

/-! ## The candidate gate's accumulator -/

theorem acc1_reset (c : Dev nD) (n : Nat) (hb : n < cfg0.N) (h0 : n % 4 = 0) (a : Vec F S512x512 .f32) :
    Value.scAt0_1 m c n hb a = k0_pay10 (xb m c ⟨n, hb⟩) k0_pay5 (wgb m c ⟨n, hb⟩) := by
  have h1 : ¬ n % 4 = 3 := by omega
  unfold Value.scAt0_1
  rw [dif_pos h0, dif_neg h1]
  exact pA1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h))
    (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N))

theorem acc1_step (c : Dev nD) (n : Nat) (hb : n < cfg0.N) (h0 : ¬ n % 4 = 0) (a : Vec F S512x512 .f32) :
    Value.scAt0_1 m c n hb a = k0_pay10 (xb m c ⟨n, hb⟩) a (wgb m c ⟨n, hb⟩) := by
  unfold Value.scAt0_1
  rw [dif_neg h0]
  by_cases h1 : n % 4 = 3
  · rw [dif_pos h1]
    exact pC1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1)
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) (acc0 m c (n - 1) (Nat.lt_of_le_of_lt (Nat.sub_le _ _) hb)) a (acc2 m c (n - 1) (Nat.lt_of_le_of_lt (Nat.sub_le _ _) hb)) (acc3 m c (n - 1) (Nat.lt_of_le_of_lt (Nat.sub_le _ _) hb))
  · rw [dif_neg h1]
    exact pB1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h))
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) (acc0 m c (n - 1) (Nat.lt_of_le_of_lt (Nat.sub_le _ _) hb)) a (acc2 m c (n - 1) (Nat.lt_of_le_of_lt (Nat.sub_le _ _) hb)) (acc3 m c (n - 1) (Nat.lt_of_le_of_lt (Nat.sub_le _ _) hb))

/-! ## The input gate's accumulator -/

theorem acc2_reset (c : Dev nD) (n : Nat) (hb : n < cfg0.N) (h0 : n % 4 = 0) (a : Vec F S512x512 .f32) :
    Value.scAt0_2 m c n hb a = k0_pay11 (xb m c ⟨n, hb⟩) k0_pay6 (wib m c ⟨n, hb⟩) := by
  have h1 : ¬ n % 4 = 3 := by omega
  unfold Value.scAt0_2
  rw [dif_pos h0, dif_neg h1]
  exact pA2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h))
    (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N))

theorem acc2_step (c : Dev nD) (n : Nat) (hb : n < cfg0.N) (h0 : ¬ n % 4 = 0) (a : Vec F S512x512 .f32) :
    Value.scAt0_2 m c n hb a = k0_pay11 (xb m c ⟨n, hb⟩) a (wib m c ⟨n, hb⟩) := by
  unfold Value.scAt0_2
  rw [dif_neg h0]
  by_cases h1 : n % 4 = 3
  · rw [dif_pos h1]
    exact pC2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1)
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) (acc0 m c (n - 1) (Nat.lt_of_le_of_lt (Nat.sub_le _ _) hb)) (acc1 m c (n - 1) (Nat.lt_of_le_of_lt (Nat.sub_le _ _) hb)) a (acc3 m c (n - 1) (Nat.lt_of_le_of_lt (Nat.sub_le _ _) hb))
  · rw [dif_neg h1]
    exact pB2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h))
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) (acc0 m c (n - 1) (Nat.lt_of_le_of_lt (Nat.sub_le _ _) hb)) (acc1 m c (n - 1) (Nat.lt_of_le_of_lt (Nat.sub_le _ _) hb)) a (acc3 m c (n - 1) (Nat.lt_of_le_of_lt (Nat.sub_le _ _) hb))

/-! ## The output gate's accumulator -/

theorem acc3_reset (c : Dev nD) (n : Nat) (hb : n < cfg0.N) (h0 : n % 4 = 0) (a : Vec F S512x512 .f32) :
    Value.scAt0_3 m c n hb a = k0_pay1 (k0_pay8 (xb m c ⟨n, hb⟩)) k0_pay7 (wob m c ⟨n, hb⟩) := by
  have h1 : ¬ n % 4 = 3 := by omega
  unfold Value.scAt0_3
  rw [dif_pos h0, dif_neg h1]
  exact pA3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h))
    (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N))

theorem acc3_step (c : Dev nD) (n : Nat) (hb : n < cfg0.N) (h0 : ¬ n % 4 = 0) (a : Vec F S512x512 .f32) :
    Value.scAt0_3 m c n hb a = k0_pay1 (k0_pay8 (xb m c ⟨n, hb⟩)) a (wob m c ⟨n, hb⟩) := by
  unfold Value.scAt0_3
  rw [dif_neg h0]
  by_cases h1 : n % 4 = 3
  · rw [dif_pos h1]
    exact pC3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1)
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) (acc0 m c (n - 1) (Nat.lt_of_le_of_lt (Nat.sub_le _ _) hb)) (acc1 m c (n - 1) (Nat.lt_of_le_of_lt (Nat.sub_le _ _) hb)) (acc2 m c (n - 1) (Nat.lt_of_le_of_lt (Nat.sub_le _ _) hb)) a
  · rw [dif_neg h1]
    exact pB3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h))
      (xb m c (⟨n, hb⟩ : Fin cfg0.N)) (wfb m c (⟨n, hb⟩ : Fin cfg0.N)) (wgb m c (⟨n, hb⟩ : Fin cfg0.N)) (wib m c (⟨n, hb⟩ : Fin cfg0.N)) (wob m c (⟨n, hb⟩ : Fin cfg0.N)) (bfb m c (⟨n, hb⟩ : Fin cfg0.N)) (bgb m c (⟨n, hb⟩ : Fin cfg0.N)) (bib m c (⟨n, hb⟩ : Fin cfg0.N)) (bob m c (⟨n, hb⟩ : Fin cfg0.N)) (cb m c (⟨n, hb⟩ : Fin cfg0.N)) (acc0 m c (n - 1) (Nat.lt_of_le_of_lt (Nat.sub_le _ _) hb)) (acc1 m c (n - 1) (Nat.lt_of_le_of_lt (Nat.sub_le _ _) hb)) (acc2 m c (n - 1) (Nat.lt_of_le_of_lt (Nat.sub_le _ _) hb)) a

/-! ## What the last step of a run writes back -/

/-- The new cell state's block at a run's last step: the epilogue over the accumulators this step has just updated
    from what the step before left. -/
theorem cell_block (c : Dev nD) (t : Fin cfg0.N) (h1 : t.val % 4 = 3) :
    (dats m 0 c).flushed 10 t = (cfg0.win 10).cut (grid0.coords t)
      (k0_pay2
        (k0_pay9 (xb m c t) (acc0 m c (t.val - 1) (Nat.lt_of_le_of_lt (Nat.sub_le _ _) t.isLt)) (wfb m c t)) (bfb m c t)
        (k0_pay10 (xb m c t) (acc1 m c (t.val - 1) (Nat.lt_of_le_of_lt (Nat.sub_le _ _) t.isLt)) (wgb m c t)) (bgb m c t)
        (k0_pay11 (xb m c t) (acc2 m c (t.val - 1) (Nat.lt_of_le_of_lt (Nat.sub_le _ _) t.isLt)) (wib m c t)) (bib m c t)
        (cb m c t)) := by
  have h0 : ¬ t.val % 4 = 0 := by omega
  rw [Value.flushed10_C m c t h0 h1]
  exact congrArg ((cfg0.win 10).cut (grid0.coords t))
    (pC10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1)
      (xb m c t) (wfb m c t) (wgb m c t) (wib m c t) (wob m c t) (bfb m c t) (bgb m c t) (bib m c t) (bob m c t) (cb m c t) (acc0 m c (t.val - 1) (Nat.lt_of_le_of_lt (Nat.sub_le _ _) t.isLt)) (acc1 m c (t.val - 1) (Nat.lt_of_le_of_lt (Nat.sub_le _ _) t.isLt)) (acc2 m c (t.val - 1) (Nat.lt_of_le_of_lt (Nat.sub_le _ _) t.isLt)) (acc3 m c (t.val - 1) (Nat.lt_of_le_of_lt (Nat.sub_le _ _) t.isLt)))

/-- The new hidden state's block at a run's last step. -/
theorem hidden_block (c : Dev nD) (t : Fin cfg0.N) (h1 : t.val % 4 = 3) :
    (dats m 0 c).flushed 11 t = (cfg0.win 11).cut (grid0.coords t)
      (k0_pay3
        (k0_pay9 (xb m c t) (acc0 m c (t.val - 1) (Nat.lt_of_le_of_lt (Nat.sub_le _ _) t.isLt)) (wfb m c t)) (bfb m c t)
        (k0_pay10 (xb m c t) (acc1 m c (t.val - 1) (Nat.lt_of_le_of_lt (Nat.sub_le _ _) t.isLt)) (wgb m c t)) (bgb m c t)
        (k0_pay11 (xb m c t) (acc2 m c (t.val - 1) (Nat.lt_of_le_of_lt (Nat.sub_le _ _) t.isLt)) (wib m c t)) (bib m c t)
        (k0_pay1 (k0_pay8 (xb m c t)) (acc3 m c (t.val - 1) (Nat.lt_of_le_of_lt (Nat.sub_le _ _) t.isLt)) (wob m c t)) (bob m c t)
        (cb m c t)) := by
  have h0 : ¬ t.val % 4 = 0 := by omega
  rw [Value.flushed11_C m c t h0 h1]
  exact congrArg ((cfg0.win 11).cut (grid0.coords t))
    (pC11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1)
      (xb m c t) (wfb m c t) (wgb m c t) (wib m c t) (wob m c t) (bfb m c t) (bgb m c t) (bib m c t) (bob m c t) (cb m c t) (acc0 m c (t.val - 1) (Nat.lt_of_le_of_lt (Nat.sub_le _ _) t.isLt)) (acc1 m c (t.val - 1) (Nat.lt_of_le_of_lt (Nat.sub_le _ _) t.isLt)) (acc2 m c (t.val - 1) (Nat.lt_of_le_of_lt (Nat.sub_le _ _) t.isLt)) (acc3 m c (t.val - 1) (Nat.lt_of_le_of_lt (Nat.sub_le _ _) t.isLt)))

end Cert.KernelIdeal.Pieces

end
-- ==== Proof.Spec.lean ====
/-
  One step of a long short-term memory cell over the extended reals, entry by entry.

  The activation `x` [4096, 4096] and the hidden state `h` [4096, 4096] are set side by side into one
  [4096, 8192] matrix. Each of the four gates has a weight matrix `W` [8192, 4096] and a bias row `b` [4096]; its
  pre-activation at entry (r, c) is the inner product of row r of the joined matrix with column c of `W`, plus `b c`.
  With σ the logistic function, the new cell state is  c · σ(f) + tanh(g) · σ(i)  and the new hidden state is
  tanh(new cell state) · σ(o), where f, g, i, o are the four pre-activations.

  Also here: a sum of q · n terms is the sum of its q consecutive blocks of n terms. Addition of extended reals is
  commutative and associative, so the law needs nothing of its terms.
-/
import Idealize.ShloMosaic.PureOps.Ideal
import Idealize.ShloMosaic.Lib.ValueIdx
import Mathlib.Data.Fintype.BigOperators
import Mathlib.Logic.Equiv.Fin.Basic

noncomputable section

open scoped BigOperators

namespace Cert.Cell

open Idealize.ShloMosaic Idealize.ShloMosaic.ValueIdx

/-- A matrix of extended reals with `R` rows and `C` columns. -/
abbrev Mat (R C : Nat) : Type := (⟨2, ![R, C]⟩ : Shape).Idx → EReal

/-- A row of `C` extended reals. -/
abbrev Row (C : Nat) : Type := (⟨1, ![C]⟩ : Shape).Idx → EReal

/-- Entry (r, k) of `x` and `h` set side by side: `x` for the first 4096 columns, `h` after them. -/
def joined (x h : Mat 4096 4096) (r : Fin 4096) (k : Fin 8192) : EReal :=
  if hk : k.val < 4096 then x (ix2 r ⟨k.val, hk⟩)
  else h (ix2 r ⟨k.val - 4096, by have := k.isLt; omega⟩)

/-- A gate's pre-activation at (r, c): row r of the joined matrix against column c of the weights, plus the bias. -/
def pre (x h : Mat 4096 4096) (W : Mat 8192 4096) (b : Row 4096) (r c : Fin 4096) : EReal :=
  (∑ k : Fin 8192, joined x h r k * W (ix2 k c)) + b (ix1 c)

/-- The new cell state at (r, c). -/
def cellAt (x h cc : Mat 4096 4096) (Wf : Mat 8192 4096) (bf : Row 4096) (Wg : Mat 8192 4096) (bg : Row 4096)
    (Wi : Mat 8192 4096) (bi : Row 4096) (r c : Fin 4096) : EReal :=
  cc (ix2 r c) * Ideal.logistic (pre x h Wf bf r c) + Ideal.tanh (pre x h Wg bg r c) * Ideal.logistic (pre x h Wi bi r c)

/-- The new hidden state at (r, c). -/
def hiddenAt (x h cc : Mat 4096 4096) (Wf : Mat 8192 4096) (bf : Row 4096) (Wg : Mat 8192 4096) (bg : Row 4096)
    (Wi : Mat 8192 4096) (bi : Row 4096) (Wo : Mat 8192 4096) (bo : Row 4096) (r c : Fin 4096) : EReal :=
  Ideal.tanh (cellAt x h cc Wf bf Wg bg Wi bi r c) * Ideal.logistic (pre x h Wo bo r c)

/-- The new cell state as a whole matrix. -/
def cellOut (x h cc : Mat 4096 4096) (Wf : Mat 8192 4096) (bf : Row 4096) (Wg : Mat 8192 4096) (bg : Row 4096)
    (Wi : Mat 8192 4096) (bi : Row 4096) : Mat 4096 4096 :=
  fun j => cellAt x h cc Wf bf Wg bg Wi bi (j 0) (j 1)

/-- The new hidden state as a whole matrix. -/
def hiddenOut (x h cc : Mat 4096 4096) (Wf : Mat 8192 4096) (bf : Row 4096) (Wg : Mat 8192 4096) (bg : Row 4096)
    (Wi : Mat 8192 4096) (bi : Row 4096) (Wo : Mat 8192 4096) (bo : Row 4096) : Mat 4096 4096 :=
  fun j => hiddenAt x h cc Wf bf Wg bg Wi bi Wo bo (j 0) (j 1)

/-! ## Where a grid point's blocks sit

  The grid has 8 × 8 × 4 points, numbered with the last coordinate fastest: point n has row-block n / 32,
  column-block n / 4 % 8 and step n % 4 along the shared axis. Row blocks and column blocks are 512 wide, steps along
  the shared axis 2048. -/

/-- Row p of the row block of point n. -/
def rowOf (n : Nat) (p : Fin 512) : Fin 4096 := ⟨512 * (n / 32 % 8) + p.val, by have := p.isLt; omega⟩

/-- Column q of the column block of point n. -/
def colOf (n : Nat) (q : Fin 512) : Fin 4096 := ⟨512 * (n / 4 % 8) + q.val, by have := q.isLt; omega⟩

/-- Position b of the step of point n along the shared axis. -/
def kOf (n : Nat) (b : Fin 2048) : Fin 8192 := ⟨2048 * (n % 4) + b.val, by have := b.isLt; omega⟩

/-! ## A long sum, block by block -/

/-- A sum of `q * n` terms is the sum over the `q` blocks of the `n` terms of each block; term `b` of block `a` is
    term `b + n * a` of the whole. -/
theorem sum_blocks {M : Type} [AddCommMonoid M] (q n : Nat) (f : Fin (q * n) → M) :
    ∑ i, f i = ∑ a : Fin q, ∑ b : Fin n, f (finProdFinEquiv (a, b)) := by
  rw [← Equiv.sum_comp finProdFinEquiv f, Fintype.sum_prod_type]

/-- Term `b` of block `a` among 4 blocks of 2048, as a position below 8192. -/
def at4 (a : Fin 4) (b : Fin 2048) : Fin 8192 := ⟨2048 * a.val + b.val, by have := a.isLt; have := b.isLt; omega⟩

/-- A sum of 8192 terms, accumulated from zero over its four blocks of 2048 in order. -/
theorem sum_four_blocks {M : Type} [AddCommMonoid M] (f : Fin 8192 → M) :
    ∑ k : Fin 8192, f k
      = (((0 + ∑ b : Fin 2048, f (at4 0 b)) + ∑ b : Fin 2048, f (at4 1 b)) + ∑ b : Fin 2048, f (at4 2 b))
          + ∑ b : Fin 2048, f (at4 3 b) := by
  have h := sum_blocks 4 2048 (fun i : Fin (4 * 2048) => f ⟨i.val, i.isLt⟩)
  have hl : (∑ i : Fin (4 * 2048), f ⟨i.val, i.isLt⟩) = ∑ k : Fin 8192, f k := rfl
  rw [← hl, h, Fin.sum_univ_four, zero_add]
  have e : ∀ (a : Fin 4) (b : Fin 2048),
      (⟨(finProdFinEquiv (a, b) : Fin (4 * 2048)).val, (finProdFinEquiv (a, b) : Fin (4 * 2048)).isLt⟩ : Fin 8192) = at4 a b := by
    intro a b
    apply Fin.ext
    show b.val + 2048 * a.val = 2048 * a.val + b.val
    omega
  simp only [e]

end Cert.Cell

end
-- ==== Proof.Blocks.lean ====
/-
  Each block the kernel reads at a grid point, at an entry, is an entry of one of the arguments.

  The joined activation is `x` and `h` set side by side (a change of number format is the identity on the extended
  reals, so the rounding to a shorter format that precedes the kernel changes nothing). The block at point n holds the
  rows of the point's row block and the columns of its step; the weight blocks hold the rows of the step and the
  columns of the point's column block; the bias blocks hold the columns of the column block; the cell-state block
  holds the rows of the row block and the columns of the column block.
-/
import proofs.«175709_j704374636891_1_alg».proof.Proof.Names
import proofs.«175709_j704374636891_1_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Cert.KernelIdeal.Nm Idealize.ShloMosaic Idealize.ShloMosaic.TcCoe Idealize.SL.Sem
open Idealize.ShloMosaic.ValueIdx Cert.Cell

variable (m : (ℓ : Loc nD τ sig) → Buf (Elt Ideal) ℓ)

/-! ## The eleven arguments, as matrices and rows of extended reals -/

abbrev aX (c : Dev nD) : Mat 4096 4096 := m ((c.tc : Thread nD τ).loc main_arg0)
abbrev aH (c : Dev nD) : Mat 4096 4096 := m ((c.tc : Thread nD τ).loc main_arg1)
abbrev aC (c : Dev nD) : Mat 4096 4096 := m ((c.tc : Thread nD τ).loc main_arg2)
abbrev aWf (c : Dev nD) : Mat 8192 4096 := m ((c.tc : Thread nD τ).loc main_arg3)
abbrev aBf (c : Dev nD) : Row 4096 := m ((c.tc : Thread nD τ).loc main_arg4)
abbrev aWg (c : Dev nD) : Mat 8192 4096 := m ((c.tc : Thread nD τ).loc main_arg5)
abbrev aBg (c : Dev nD) : Row 4096 := m ((c.tc : Thread nD τ).loc main_arg6)
abbrev aWi (c : Dev nD) : Mat 8192 4096 := m ((c.tc : Thread nD τ).loc main_arg7)
abbrev aBi (c : Dev nD) : Row 4096 := m ((c.tc : Thread nD τ).loc main_arg8)
abbrev aWo (c : Dev nD) : Mat 8192 4096 := m ((c.tc : Thread nD τ).loc main_arg9)
abbrev aBo (c : Dev nD) : Row 4096 := m ((c.tc : Thread nD τ).loc main_arg10)

/-! ## The arrays the kernel's windows stage, as the kernel finds them -/

/-- The joined activation the kernel stages: the change of format of `x` and `h` set side by side. -/
theorem v1_eq (c : Dev nD) : (V m c main_v1 : S4096x8192.Idx → EReal)
    = (truncf (F := Ideal) .bf16 (concatenate S4096x8192 1 [⟨S4096x4096, aX m c⟩, ⟨S4096x4096, aH m c⟩] concatenates_S4096x4096_S4096x4096_S4096x8192_d1 : FVec Ideal S4096x8192 .f32) bitsLt_bf16_f32 : S4096x8192.Idx → EReal) := by
  dsimp only [Gen.V, Gen.hostOps0]; after_results

/-- The joined array at row r, column k: `x` below column 4096, `h` from there on. -/
theorem v1_at (c : Dev nD) (r : Fin 4096) (k : Fin 8192) :
    (V m c main_v1 : S4096x8192.Idx → EReal) (ix2 r k) = joined (aX m c) (aH m c) r k := by
  rw [v1_eq]
  show concatenate S4096x8192 1 [⟨S4096x4096, aX m c⟩, ⟨S4096x4096, aH m c⟩] concatenates_S4096x4096_S4096x4096_S4096x8192_d1 (ix2 r k) = _
  unfold joined
  split
  · next hk =>
    exact concatenate_pair_apply_left (t := S4096x8192) (s₁ := S4096x4096) (s₂ := S4096x4096) (1 : Fin 2) _ _ _ _ rfl _ (fun b => by
      match b with
      | ⟨0, _⟩ => rfl
      | ⟨1, _⟩ => rfl)
  · next hk =>
    exact concatenate_pair_apply_right (t := S4096x8192) (s₁ := S4096x4096) (s₂ := S4096x4096) (1 : Fin 2) _ _ _ _ rfl rfl _
      (fun b hb => by
        match b with
        | ⟨0, _⟩ => rfl
        | ⟨1, _⟩ => exact absurd rfl hb)
      (by show k.val - 4096 + 4096 = k.val; omega)

/-- The forget gate's weights as the kernel stages them: a change of format of the argument. -/
theorem v2_eq (c : Dev nD) : (V m c main_v2 : S8192x4096.Idx → EReal)
    = (truncf (F := Ideal) .bf16 (aWf m c : FVec Ideal S8192x4096 .f32) bitsLt_bf16_f32 : S8192x4096.Idx → EReal) := by
  dsimp only [Gen.V, Gen.hostOps0]; after_results

/-- The candidate gate's weights as the kernel stages them. -/
theorem v3_eq (c : Dev nD) : (V m c main_v3 : S8192x4096.Idx → EReal)
    = (truncf (F := Ideal) .bf16 (aWg m c : FVec Ideal S8192x4096 .f32) bitsLt_bf16_f32 : S8192x4096.Idx → EReal) := by
  dsimp only [Gen.V, Gen.hostOps0]; after_results

/-- The input gate's weights as the kernel stages them. -/
theorem v4_eq (c : Dev nD) : (V m c main_v4 : S8192x4096.Idx → EReal)
    = (truncf (F := Ideal) .bf16 (aWi m c : FVec Ideal S8192x4096 .f32) bitsLt_bf16_f32 : S8192x4096.Idx → EReal) := by
  dsimp only [Gen.V, Gen.hostOps0]; after_results

/-- The output gate's weights as the kernel stages them. -/
theorem v5_eq (c : Dev nD) : (V m c main_v5 : S8192x4096.Idx → EReal)
    = (truncf (F := Ideal) .bf16 (aWo m c : FVec Ideal S8192x4096 .f32) bitsLt_bf16_f32 : S8192x4096.Idx → EReal) := by
  dsimp only [Gen.V, Gen.hostOps0]; after_results

/-! ## Which block each window holds at a grid point

  Point t of the 8 × 8 × 4 grid has row block t / 32 % 8, column block t / 4 % 8 and step t % 4. The joined
  activation's window follows (row block, step), the weight windows (step, column block), the bias windows the column
  block, the cell state's window (row block, column block). Each is decided once over the 256 points. -/

theorem idx0 : ∀ t : Fin cfg0.N, win0_0.index t (0 : Fin 2) = t.val / 32 % 8 ∧ win0_0.index t (1 : Fin 2) = t.val % 4 :=
  (by decide +kernel : ∀ t : Fin grid0.N, _)

theorem idx1 : ∀ t : Fin cfg0.N, win0_1.index t (0 : Fin 2) = t.val % 4 ∧ win0_1.index t (1 : Fin 2) = t.val / 4 % 8 :=
  (by decide +kernel : ∀ t : Fin grid0.N, _)

theorem idx2 : ∀ t : Fin cfg0.N, win0_2.index t (0 : Fin 2) = t.val % 4 ∧ win0_2.index t (1 : Fin 2) = t.val / 4 % 8 :=
  (by decide +kernel : ∀ t : Fin grid0.N, _)

theorem idx3 : ∀ t : Fin cfg0.N, win0_3.index t (0 : Fin 2) = t.val % 4 ∧ win0_3.index t (1 : Fin 2) = t.val / 4 % 8 :=
  (by decide +kernel : ∀ t : Fin grid0.N, _)

theorem idx4 : ∀ t : Fin cfg0.N, win0_4.index t (0 : Fin 2) = t.val % 4 ∧ win0_4.index t (1 : Fin 2) = t.val / 4 % 8 :=
  (by decide +kernel : ∀ t : Fin grid0.N, _)

theorem idx5 : ∀ t : Fin cfg0.N, win0_5.index t (0 : Fin 1) = t.val / 4 % 8 :=
  (by decide +kernel : ∀ t : Fin grid0.N, _)

theorem idx6 : ∀ t : Fin cfg0.N, win0_6.index t (0 : Fin 1) = t.val / 4 % 8 :=
  (by decide +kernel : ∀ t : Fin grid0.N, _)

theorem idx7 : ∀ t : Fin cfg0.N, win0_7.index t (0 : Fin 1) = t.val / 4 % 8 :=
  (by decide +kernel : ∀ t : Fin grid0.N, _)

theorem idx8 : ∀ t : Fin cfg0.N, win0_8.index t (0 : Fin 1) = t.val / 4 % 8 :=
  (by decide +kernel : ∀ t : Fin grid0.N, _)

theorem idx9 : ∀ t : Fin cfg0.N, win0_9.index t (0 : Fin 2) = t.val / 32 % 8 ∧ win0_9.index t (1 : Fin 2) = t.val / 4 % 8 :=
  (by decide +kernel : ∀ t : Fin grid0.N, _)

/-! ## The blocks at an entry

  An entry of a block sits in its array, on each axis, at the block's index times the block's extent plus the entry's
  own coordinate. -/

theorem xb_at (c : Dev nD) (t : Fin cfg0.N) (p : Fin 512) (b : Fin 2048) :
    xb m c t (ix2 p b) = joined (aX m c) (aH m c) (rowOf t.val p) (kOf t.val b) := by
  rw [← v1_at]
  show (iblk m c 0 t : Vec Ideal S512x2048 .bf16) (ix2 p b) = _
  unfold iblk
  rw [View.read_apply]
  show V m c main_v1 (((cfg0.win 0).blk t).view.emb (ix2 p b)) = V m c main_v1 (ix2 (rowOf t.val p) (kOf t.val b))
  congr 1
  funext a
  apply Fin.ext
  obtain ⟨e0, e1⟩ := idx0 t
  match a with
  | ⟨0, _⟩ => show win0_0.index t (0 : Fin 2) * 512 + 1 * p.val = 512 * (t.val / 32 % 8) + p.val; omega
  | ⟨1, _⟩ => show win0_0.index t (1 : Fin 2) * 2048 + 1 * b.val = 2048 * (t.val % 4) + b.val; omega

theorem wfb_at (c : Dev nD) (t : Fin cfg0.N) (b : Fin 2048) (q : Fin 512) :
    wfb m c t (ix2 b q) = aWf m c (ix2 (kOf t.val b) (colOf t.val q)) := by
  have e : aWf m c (ix2 (kOf t.val b) (colOf t.val q))
      = (V m c main_v2 : S8192x4096.Idx → EReal) (ix2 (kOf t.val b) (colOf t.val q)) := by rw [v2_eq]; rfl
  rw [e]
  show (iblk m c 1 t : Vec Ideal S2048x512 .bf16) (ix2 b q) = _
  unfold iblk
  rw [View.read_apply]
  show V m c main_v2 (((cfg0.win 1).blk t).view.emb (ix2 b q)) = V m c main_v2 (ix2 (kOf t.val b) (colOf t.val q))
  congr 1
  funext a
  apply Fin.ext
  obtain ⟨e0, e1⟩ := idx1 t
  match a with
  | ⟨0, _⟩ => show win0_1.index t (0 : Fin 2) * 2048 + 1 * b.val = 2048 * (t.val % 4) + b.val; omega
  | ⟨1, _⟩ => show win0_1.index t (1 : Fin 2) * 512 + 1 * q.val = 512 * (t.val / 4 % 8) + q.val; omega

theorem wgb_at (c : Dev nD) (t : Fin cfg0.N) (b : Fin 2048) (q : Fin 512) :
    wgb m c t (ix2 b q) = aWg m c (ix2 (kOf t.val b) (colOf t.val q)) := by
  have e : aWg m c (ix2 (kOf t.val b) (colOf t.val q))
      = (V m c main_v3 : S8192x4096.Idx → EReal) (ix2 (kOf t.val b) (colOf t.val q)) := by rw [v3_eq]; rfl
  rw [e]
  show (iblk m c 2 t : Vec Ideal S2048x512 .bf16) (ix2 b q) = _
  unfold iblk
  rw [View.read_apply]
  show V m c main_v3 (((cfg0.win 2).blk t).view.emb (ix2 b q)) = V m c main_v3 (ix2 (kOf t.val b) (colOf t.val q))
  congr 1
  funext a
  apply Fin.ext
  obtain ⟨e0, e1⟩ := idx2 t
  match a with
  | ⟨0, _⟩ => show win0_2.index t (0 : Fin 2) * 2048 + 1 * b.val = 2048 * (t.val % 4) + b.val; omega
  | ⟨1, _⟩ => show win0_2.index t (1 : Fin 2) * 512 + 1 * q.val = 512 * (t.val / 4 % 8) + q.val; omega

theorem wib_at (c : Dev nD) (t : Fin cfg0.N) (b : Fin 2048) (q : Fin 512) :
    wib m c t (ix2 b q) = aWi m c (ix2 (kOf t.val b) (colOf t.val q)) := by
  have e : aWi m c (ix2 (kOf t.val b) (colOf t.val q))
      = (V m c main_v4 : S8192x4096.Idx → EReal) (ix2 (kOf t.val b) (colOf t.val q)) := by rw [v4_eq]; rfl
  rw [e]
  show (iblk m c 3 t : Vec Ideal S2048x512 .bf16) (ix2 b q) = _
  unfold iblk
  rw [View.read_apply]
  show V m c main_v4 (((cfg0.win 3).blk t).view.emb (ix2 b q)) = V m c main_v4 (ix2 (kOf t.val b) (colOf t.val q))
  congr 1
  funext a
  apply Fin.ext
  obtain ⟨e0, e1⟩ := idx3 t
  match a with
  | ⟨0, _⟩ => show win0_3.index t (0 : Fin 2) * 2048 + 1 * b.val = 2048 * (t.val % 4) + b.val; omega
  | ⟨1, _⟩ => show win0_3.index t (1 : Fin 2) * 512 + 1 * q.val = 512 * (t.val / 4 % 8) + q.val; omega

theorem wob_at (c : Dev nD) (t : Fin cfg0.N) (b : Fin 2048) (q : Fin 512) :
    wob m c t (ix2 b q) = aWo m c (ix2 (kOf t.val b) (colOf t.val q)) := by
  have e : aWo m c (ix2 (kOf t.val b) (colOf t.val q))
      = (V m c main_v5 : S8192x4096.Idx → EReal) (ix2 (kOf t.val b) (colOf t.val q)) := by rw [v5_eq]; rfl
  rw [e]
  show (iblk m c 4 t : Vec Ideal S2048x512 .bf16) (ix2 b q) = _
  unfold iblk
  rw [View.read_apply]
  show V m c main_v5 (((cfg0.win 4).blk t).view.emb (ix2 b q)) = V m c main_v5 (ix2 (kOf t.val b) (colOf t.val q))
  congr 1
  funext a
  apply Fin.ext
  obtain ⟨e0, e1⟩ := idx4 t
  match a with
  | ⟨0, _⟩ => show win0_4.index t (0 : Fin 2) * 2048 + 1 * b.val = 2048 * (t.val % 4) + b.val; omega
  | ⟨1, _⟩ => show win0_4.index t (1 : Fin 2) * 512 + 1 * q.val = 512 * (t.val / 4 % 8) + q.val; omega

theorem bfb_at (c : Dev nD) (t : Fin cfg0.N) (q : Fin 512) :
    bfb m c t (ix1 q) = aBf m c (ix1 (colOf t.val q)) := by
  show (iblk m c 5 t : Vec Ideal S512 .f32) (ix1 q) = _
  unfold iblk
  rw [View.read_apply]
  show V m c main_arg4 (((cfg0.win 5).blk t).view.emb (ix1 q)) = m ((c.tc : Thread nD τ).loc main_arg4) (ix1 (colOf t.val q))
  rw [V_main_arg4]
  congr 1
  funext a
  apply Fin.ext
  have e0 := idx5 t
  match a with
  | ⟨0, _⟩ => show win0_5.index t (0 : Fin 1) * 512 + 1 * q.val = 512 * (t.val / 4 % 8) + q.val; omega

theorem bgb_at (c : Dev nD) (t : Fin cfg0.N) (q : Fin 512) :
    bgb m c t (ix1 q) = aBg m c (ix1 (colOf t.val q)) := by
  show (iblk m c 6 t : Vec Ideal S512 .f32) (ix1 q) = _
  unfold iblk
  rw [View.read_apply]
  show V m c main_arg6 (((cfg0.win 6).blk t).view.emb (ix1 q)) = m ((c.tc : Thread nD τ).loc main_arg6) (ix1 (colOf t.val q))
  rw [V_main_arg6]
  congr 1
  funext a
  apply Fin.ext
  have e0 := idx6 t
  match a with
  | ⟨0, _⟩ => show win0_6.index t (0 : Fin 1) * 512 + 1 * q.val = 512 * (t.val / 4 % 8) + q.val; omega

theorem bib_at (c : Dev nD) (t : Fin cfg0.N) (q : Fin 512) :
    bib m c t (ix1 q) = aBi m c (ix1 (colOf t.val q)) := by
  show (iblk m c 7 t : Vec Ideal S512 .f32) (ix1 q) = _
  unfold iblk
  rw [View.read_apply]
  show V m c main_arg8 (((cfg0.win 7).blk t).view.emb (ix1 q)) = m ((c.tc : Thread nD τ).loc main_arg8) (ix1 (colOf t.val q))
  rw [V_main_arg8]
  congr 1
  funext a
  apply Fin.ext
  have e0 := idx7 t
  match a with
  | ⟨0, _⟩ => show win0_7.index t (0 : Fin 1) * 512 + 1 * q.val = 512 * (t.val / 4 % 8) + q.val; omega

theorem bob_at (c : Dev nD) (t : Fin cfg0.N) (q : Fin 512) :
    bob m c t (ix1 q) = aBo m c (ix1 (colOf t.val q)) := by
  show (iblk m c 8 t : Vec Ideal S512 .f32) (ix1 q) = _
  unfold iblk
  rw [View.read_apply]
  show V m c main_arg10 (((cfg0.win 8).blk t).view.emb (ix1 q)) = m ((c.tc : Thread nD τ).loc main_arg10) (ix1 (colOf t.val q))
  rw [V_main_arg10]
  congr 1
  funext a
  apply Fin.ext
  have e0 := idx8 t
  match a with
  | ⟨0, _⟩ => show win0_8.index t (0 : Fin 1) * 512 + 1 * q.val = 512 * (t.val / 4 % 8) + q.val; omega

theorem cb_at (c : Dev nD) (t : Fin cfg0.N) (p q : Fin 512) :
    cb m c t (ix2 p q) = aC m c (ix2 (rowOf t.val p) (colOf t.val q)) := by
  show (iblk m c 9 t : Vec Ideal S512x512 .f32) (ix2 p q) = _
  unfold iblk
  rw [View.read_apply]
  show V m c main_arg2 (((cfg0.win 9).blk t).view.emb (ix2 p q)) = m ((c.tc : Thread nD τ).loc main_arg2) (ix2 (rowOf t.val p) (colOf t.val q))
  rw [V_main_arg2]
  congr 1
  funext a
  apply Fin.ext
  obtain ⟨e0, e1⟩ := idx9 t
  match a with
  | ⟨0, _⟩ => show win0_9.index t (0 : Fin 2) * 512 + 1 * p.val = 512 * (t.val / 32 % 8) + p.val; omega
  | ⟨1, _⟩ => show win0_9.index t (1 : Fin 2) * 512 + 1 * q.val = 512 * (t.val / 4 % 8) + q.val; omega

end Cert.KernelIdeal.Blocks

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.PayAt.lean ====
/-
  The kernel's arithmetic read at an entry, over the extended reals.

  One accumulation step adds to entry (p, q) of a gate's accumulator the inner product of row p of the activation
  block with column q of the weight block; the accumulators start from zero. The epilogue adds each gate's bias row
  to its accumulator and combines the four gates into the new cell state and the new hidden state.
-/
import proofs.«175709_j704374636891_1_alg».proof.Proof.Gen.KernelIdeal.Skeleton
import proofs.«175709_j704374636891_1_alg».proof.Proof.LibDot
import Idealize.ShloMosaic.PureOps.Ideal.Laws
import Idealize.ShloMosaic.Lib.ValueIdx
import Idealize.ShloMosaic.Lib.Pipeline.Value

noncomputable section

open scoped BigOperators

namespace Cert.KernelIdeal.PayAt

open Cert.KernelIdeal Cert.KernelIdeal.Gen Idealize.ShloMosaic Idealize.ShloMosaic.TcCoe Idealize.ShloMosaic.ValueIdx

/-! ## The accumulators start from zero -/

theorem pay4_at (p q : Fin 512) : (k0_pay4 (F := Ideal)) (ix2 p q) = 0 := by
  unfold k0_pay4
  simp only [shapeCast_self]
  exact Ideal.ofBits_zero_f32

theorem pay5_at (p q : Fin 512) : (k0_pay5 (F := Ideal)) (ix2 p q) = 0 := by
  unfold k0_pay5
  simp only [shapeCast_self]
  exact Ideal.ofBits_zero_f32

theorem pay6_at (p q : Fin 512) : (k0_pay6 (F := Ideal)) (ix2 p q) = 0 := by
  unfold k0_pay6
  simp only [shapeCast_self]
  exact Ideal.ofBits_zero_f32

theorem pay7_at (p q : Fin 512) : (k0_pay7 (F := Ideal)) (ix2 p q) = 0 := by
  unfold k0_pay7
  simp only [shapeCast_self]
  exact Ideal.ofBits_zero_f32

/-! ## One accumulation step -/

/-- The product of an activation block and a weight block into zero, at entry (p, q): the inner product of row p
    with column q. -/
theorem prod_at (x : FVec Ideal S512x2048 .bf16) (w : FVec Ideal S2048x512 .bf16) (p q : Fin 512) :
    matmul dot_S512x2048_S2048x512_S512x512_1_0_0_1_n_n none x w (constant S512x512 .f32 0x00000000#32) (ix2 p q)
      = ∑ b : Fin 2048, x (ix2 p b) * w (ix2 b q) :=
  Cert.LibDot.matmul_zero_at dot_S512x2048_S2048x512_S512x512_1_0_0_1_n_n rfl rfl rfl rfl rfl rfl none x w p q

/-- The forget gate's step at entry (p, q). -/
theorem pay9_at (x : Vec Ideal S512x2048 .bf16) (a : Vec Ideal S512x512 .f32) (w : Vec Ideal S2048x512 .bf16) (p q : Fin 512) :
    k0_pay9 x a w (ix2 p q) = a (ix2 p q) + ∑ b : Fin 2048, x (ix2 p b) * w (ix2 b q) := by
  unfold k0_pay9 k0_pay8
  simp only [shapeCast_self]
  rw [addf_apply, prod_at]

/-- The candidate gate's step at entry (p, q). -/
theorem pay10_at (x : Vec Ideal S512x2048 .bf16) (a : Vec Ideal S512x512 .f32) (w : Vec Ideal S2048x512 .bf16) (p q : Fin 512) :
    k0_pay10 x a w (ix2 p q) = a (ix2 p q) + ∑ b : Fin 2048, x (ix2 p b) * w (ix2 b q) := by
  unfold k0_pay10 k0_pay8
  simp only [shapeCast_self]
  rw [addf_apply, prod_at]

/-- The input gate's step at entry (p, q). -/
theorem pay11_at (x : Vec Ideal S512x2048 .bf16) (a : Vec Ideal S512x512 .f32) (w : Vec Ideal S2048x512 .bf16) (p q : Fin 512) :
    k0_pay11 x a w (ix2 p q) = a (ix2 p q) + ∑ b : Fin 2048, x (ix2 p b) * w (ix2 b q) := by
  unfold k0_pay11 k0_pay8
  simp only [shapeCast_self]
  rw [addf_apply, prod_at]

/-- The output gate's step at entry (p, q). -/
theorem pay1_at (x : Vec Ideal S512x2048 .bf16) (a : Vec Ideal S512x512 .f32) (w : Vec Ideal S2048x512 .bf16) (p q : Fin 512) :
    k0_pay1 (k0_pay8 x) a w (ix2 p q) = a (ix2 p q) + ∑ b : Fin 2048, x (ix2 p b) * w (ix2 b q) := by
  unfold k0_pay1 k0_pay8
  simp only [shapeCast_self]
  rw [addf_apply, prod_at]

/-! ## The bias row, spread over the block's rows -/

/-- A row of 512 numbers viewed as a [1, 512] matrix and repeated down 512 rows holds, at (p, q), the row's q-th number. -/
theorem rowBias_at {α : Type} (v : S512.Idx → α) (p q : Fin 512) :
    broadcastTo S512x512 (shapeCast S1x512 v shapeCasts_S512_S1x512) broadcasts_S1x512_S512x512 (ix2 p q) = v (ix1 q) := by
  rw [broadcastTo_apply (shapeCast S1x512 v shapeCasts_S512_S1x512) broadcasts_S1x512_S512x512 (ix2 p q)
    (ix2 (0 : Fin 1) q) (by
      intro a
      match a with
      | ⟨0, _⟩ => rfl
      | ⟨1, _⟩ => rfl)]
  rw [shapeCast_addUnit_apply ![512] v shapeCasts_S512_S1x512 (ix2 (0 : Fin 1) q)]
  congr 1
  funext a
  match a with
  | ⟨0, _⟩ => rfl

/-! ## The epilogue -/

/-- The new cell state at entry (p, q) of the block. -/
theorem pay2_at (a0 : Vec Ideal S512x512 .f32) (bf : Vec Ideal S512 .f32) (a1 : Vec Ideal S512x512 .f32) (bg : Vec Ideal S512 .f32)
    (a2 : Vec Ideal S512x512 .f32) (bi : Vec Ideal S512 .f32) (cc : Vec Ideal S512x512 .f32) (p q : Fin 512) :
    k0_pay2 a0 bf a1 bg a2 bi cc (ix2 p q)
      = cc (ix2 p q) * Ideal.logistic (a0 (ix2 p q) + bf (ix1 q))
          + Ideal.tanh (a1 (ix2 p q) + bg (ix1 q)) * Ideal.logistic (a2 (ix2 p q) + bi (ix1 q)) := by
  unfold k0_pay2
  simp only [addf_apply, mulf_apply, logistic, tanh, rowBias_at, Ideal.logistic_def, Ideal.tanh_def]

/-- The new hidden state at entry (p, q) of the block. -/
theorem pay3_at (a0 : Vec Ideal S512x512 .f32) (bf : Vec Ideal S512 .f32) (a1 : Vec Ideal S512x512 .f32) (bg : Vec Ideal S512 .f32)
    (a2 : Vec Ideal S512x512 .f32) (bi : Vec Ideal S512 .f32) (a3 : Vec Ideal S512x512 .f32) (bo : Vec Ideal S512 .f32)
    (cc : Vec Ideal S512x512 .f32) (p q : Fin 512) :
    k0_pay3 a0 bf a1 bg a2 bi a3 bo cc (ix2 p q)
      = Ideal.tanh (k0_pay2 a0 bf a1 bg a2 bi cc (ix2 p q)) * Ideal.logistic (a3 (ix2 p q) + bo (ix1 q)) := by
  unfold k0_pay3
  simp only [addf_apply, mulf_apply, logistic, tanh, rowBias_at, Ideal.logistic_def, Ideal.tanh_def]

end Cert.KernelIdeal.PayAt

end
-- ==== Proof.Algebra.lean ====
/-
  A run of four grid points accumulates a gate's whole inner product.

  Point n adds to entry (p, q) of a gate's accumulator the part of the inner product that lies in the point's step of
  the shared axis: the 2048 products of row `rowOf n p` of the joined activation with column `colOf n q` of the
  gate's weights at the positions `kOf n b`. The four points of a run share their row block and column block and take
  the four steps in order, so from zero they accumulate the sum over all 8192 positions.
-/
import proofs.«175709_j704374636891_1_alg».proof.Proof.Spec

noncomputable section

open scoped BigOperators

namespace Cert.Cell

open Idealize.ShloMosaic Idealize.ShloMosaic.ValueIdx

/-- What point n adds at entry (p, q) of its block, for a gate with weights `W`. -/
def termAt (X H : Mat 4096 4096) (W : Mat 8192 4096) (n : Nat) (p q : Fin 512) : EReal :=
  ∑ b : Fin 2048, joined X H (rowOf n p) (kOf n b) * W (ix2 (kOf n b) (colOf n q))

/-- Within a run the row block does not change. -/
theorem rowOf_run (b s : Nat) (hb : b % 4 = 0) (hs : s < 4) (p : Fin 512) : rowOf (b + s) p = rowOf (b + 3) p := by
  apply Fin.ext
  show 512 * ((b + s) / 32 % 8) + p.val = 512 * ((b + 3) / 32 % 8) + p.val
  omega

/-- Within a run the column block does not change. -/
theorem colOf_run (b s : Nat) (hb : b % 4 = 0) (hs : s < 4) (q : Fin 512) : colOf (b + s) q = colOf (b + 3) q := by
  apply Fin.ext
  show 512 * ((b + s) / 4 % 8) + q.val = 512 * ((b + 3) / 4 % 8) + q.val
  omega

/-- The s-th point of a run takes the s-th step of the shared axis. -/
theorem kOf_run (b : Nat) (s : Fin 4) (hb : b % 4 = 0) (k : Fin 2048) : kOf (b + s.val) k = at4 s k := by
  apply Fin.ext
  show 2048 * ((b + s.val) % 4) + k.val = 2048 * s.val + k.val
  have := s.isLt
  omega

/-- A run's four addends, accumulated from zero in order, are the whole inner product at the run's row and column. -/
theorem run_sum (X H : Mat 4096 4096) (W : Mat 8192 4096) (b : Nat) (hb : b % 4 = 0) (p q : Fin 512) :
    (0 + ∑ s ∈ Finset.range 3, termAt X H W (b + s) p q) + termAt X H W (b + 3) p q
      = ∑ k : Fin 8192, joined X H (rowOf (b + 3) p) k * W (ix2 k (colOf (b + 3) q)) := by
  rw [zero_add, ← Finset.sum_range_succ (fun s => termAt X H W (b + s) p q) 3, Finset.sum_range,
    sum_four_blocks (fun k => joined X H (rowOf (b + 3) p) k * W (ix2 k (colOf (b + 3) q))), Fin.sum_univ_four, zero_add]
  have e : ∀ s : Fin 4, termAt X H W (b + s.val) p q
      = ∑ k : Fin 2048, joined X H (rowOf (b + 3) p) (at4 s k) * W (ix2 (at4 s k) (colOf (b + 3) q)) := by
    intro s
    unfold termAt
    refine Finset.sum_congr rfl fun k _ => ?_
    rw [rowOf_run b s.val hb s.isLt, colOf_run b s.val hb s.isLt, kOf_run b s hb]
  rw [e 0, e 1, e 2, e 3]

end Cert.Cell

end
-- ==== Proof.Fold.lean ====
/-
  The four gate accumulators, entry by entry.

  After any point of a run a gate's accumulator holds, at entry (p, q), zero plus what the run's points so far have
  added there; at the run's last point, once that point's own step is added, it holds the gate's whole inner product
  of row `rowOf t p` of the joined activation with column `colOf t q` of the gate's weights.
-/
import proofs.«175709_j704374636891_1_alg».proof.Proof.Pieces
import proofs.«175709_j704374636891_1_alg».proof.Proof.Blocks
import proofs.«175709_j704374636891_1_alg».proof.Proof.PayAt
import proofs.«175709_j704374636891_1_alg».proof.Proof.Algebra
import Idealize.ShloMosaic.Lib.Pipeline.Value

noncomputable section

open scoped BigOperators

namespace Cert.KernelIdeal.Fold

open Cert.KernelIdeal Cert.KernelIdeal.Gen Cert.KernelIdeal.Nm Cert.KernelIdeal.Blocks Idealize.ShloMosaic Idealize.ShloMosaic.TcCoe
open Idealize.SL.Sem Idealize.ShloMosaic.ValueIdx Cert.Cell

/-- A fold over a run that starts at zero plus the first point's addend and adds each later point's addend holds,
    after j further points and at entry (p, q), zero plus the addends so far. -/
theorem fold_at (X H : Mat 4096 4096) (W : Mat 8192 4096)
    (a : (n : Nat) → n < cfg0.N → Vec Ideal S512x512 .f32)
    (g : (n : Nat) → n < cfg0.N → Vec Ideal S512x512 .f32 → Vec Ideal S512x512 .f32) (b : Nat) (hb : b % 4 = 0)
    (ha : ∀ (h : b < cfg0.N) (p q : Fin 512), a b h (ix2 p q) = 0 + termAt X H W b p q)
    (hg : ∀ (n : Nat) (h : n < cfg0.N) (acc : Vec Ideal S512x512 .f32) (p q : Fin 512), ¬ n % 4 = 0 →
        g n h acc (ix2 p q) = acc (ix2 p q) + termAt X H W n p q)
    (j : Nat) (hj : j ≤ 3) (h : b + j < cfg0.N) (p q : Fin 512) :
    Pipeline.accAt a g b j h (ix2 p q) = 0 + ∑ s ∈ Finset.range (j + 1), termAt X H W (b + s) p q :=
  Pipeline.accAt_add_apply (N := cfg0.N) (ι := S512x512.Idx) (β := EReal) a g (fun _ => 0)
    (fun n i => termAt X H W n (i 0) (i 1)) b 3
    (fun h i => by
      obtain ⟨p, q, rfl⟩ : ∃ (p q : Fin 512), i = ix2 p q := ⟨i 0, i 1, eq_ix2 i⟩
      exact ha h p q)
    (fun n h acc i h1 h2 => by
      obtain ⟨p, q, rfl⟩ : ∃ (p q : Fin 512), i = ix2 p q := ⟨i 0, i 1, eq_ix2 i⟩
      exact hg n h acc p q (by omega))
    j hj h (ix2 p q)

variable (m : (ℓ : Loc nD τ sig) → Buf (Elt Ideal) ℓ)

/-! ## The forget gate -/

/-- The forget gate's accumulator after point n, at entry (p, q): zero plus the addends of the run's points up to n. -/
theorem acc0_at (c : Dev nD) (n : Nat) (hn : n < cfg0.N) (p q : Fin 512) :
    acc0 m c n hn (ix2 p q)
      = 0 + ∑ s ∈ Finset.range (n % 4 + 1), termAt (aX m c) (aH m c) (aWf m c) (4 * (n / 4) + s) p q := by
  have hfold := Value.soutsAt0_0_eq m c ⟨n, hn⟩
  have hacc : acc0 m c n hn = Pipeline.accAt (fun n h => Value.scAt0_0 m c n h (VS0_0.read (Elt Ideal) VS0_0.junk))
      (Value.scAt0_0 m c) (4 * (n / 4)) (n % 4) (by have h2 := Nat.div_add_mod n 4; omega) := hfold
  rw [hacc]
  exact fold_at (aX m c) (aH m c) (aWf m c) _ _ (4 * (n / 4)) (by omega)
    (fun h p q => by
      rw [Pieces.acc0_reset m c _ h (by omega), PayAt.pay9_at, PayAt.pay4_at]
      unfold termAt
      exact congrArg (0 + ·) (Finset.sum_congr rfl fun b _ => by rw [xb_at, wfb_at]))
    (fun k h acc p q hk => by
      rw [Pieces.acc0_step m c k h hk, PayAt.pay9_at]
      unfold termAt
      exact congrArg (acc (ix2 p q) + ·) (Finset.sum_congr rfl fun b _ => by rw [xb_at, wfb_at]))
    (n % 4) (by omega) _ p q

/-- At a run's last point the forget gate's accumulator, once this point's step is added, holds the gate's whole
    inner product at the block's row and column. -/
theorem sum0_at (c : Dev nD) (t : Fin cfg0.N) (h1 : t.val % 4 = 3) (p q : Fin 512) :
    k0_pay9 (xb m c t) (acc0 m c (t.val - 1) (Nat.lt_of_le_of_lt (Nat.sub_le _ _) t.isLt)) (wfb m c t) (ix2 p q)
      = ∑ k : Fin 8192, joined (aX m c) (aH m c) (rowOf t.val p) k * aWf m c (ix2 k (colOf t.val q)) := by
  rw [PayAt.pay9_at, acc0_at m c (t.val - 1) _ p q]
  have e1 : (t.val - 1) % 4 + 1 = 3 := by omega
  have e2 : 4 * ((t.val - 1) / 4) = t.val - 3 := by omega
  have e3 : t.val - 3 + 3 = t.val := by omega
  have hlast : (∑ b : Fin 2048, xb m c t (ix2 p b) * wfb m c t (ix2 b q))
      = termAt (aX m c) (aH m c) (aWf m c) (t.val - 3 + 3) p q := by
    rw [e3]
    unfold termAt
    exact Finset.sum_congr rfl fun b _ => by rw [xb_at, wfb_at]
  rw [e1, e2, hlast, run_sum (aX m c) (aH m c) (aWf m c) (t.val - 3) (by omega) p q, e3]

/-! ## The candidate gate -/

/-- The candidate gate's accumulator after point n, at entry (p, q): zero plus the addends of the run's points up to n. -/
theorem acc1_at (c : Dev nD) (n : Nat) (hn : n < cfg0.N) (p q : Fin 512) :
    acc1 m c n hn (ix2 p q)
      = 0 + ∑ s ∈ Finset.range (n % 4 + 1), termAt (aX m c) (aH m c) (aWg m c) (4 * (n / 4) + s) p q := by
  have hfold := Value.soutsAt0_1_eq m c ⟨n, hn⟩
  have hacc : acc1 m c n hn = Pipeline.accAt (fun n h => Value.scAt0_1 m c n h (VS0_1.read (Elt Ideal) VS0_1.junk))
      (Value.scAt0_1 m c) (4 * (n / 4)) (n % 4) (by have h2 := Nat.div_add_mod n 4; omega) := hfold
  rw [hacc]
  exact fold_at (aX m c) (aH m c) (aWg m c) _ _ (4 * (n / 4)) (by omega)
    (fun h p q => by
      rw [Pieces.acc1_reset m c _ h (by omega), PayAt.pay10_at, PayAt.pay5_at]
      unfold termAt
      exact congrArg (0 + ·) (Finset.sum_congr rfl fun b _ => by rw [xb_at, wgb_at]))
    (fun k h acc p q hk => by
      rw [Pieces.acc1_step m c k h hk, PayAt.pay10_at]
      unfold termAt
      exact congrArg (acc (ix2 p q) + ·) (Finset.sum_congr rfl fun b _ => by rw [xb_at, wgb_at]))
    (n % 4) (by omega) _ p q

/-- At a run's last point the candidate gate's accumulator, once this point's step is added, holds the gate's whole
    inner product at the block's row and column. -/
theorem sum1_at (c : Dev nD) (t : Fin cfg0.N) (h1 : t.val % 4 = 3) (p q : Fin 512) :
    k0_pay10 (xb m c t) (acc1 m c (t.val - 1) (Nat.lt_of_le_of_lt (Nat.sub_le _ _) t.isLt)) (wgb m c t) (ix2 p q)
      = ∑ k : Fin 8192, joined (aX m c) (aH m c) (rowOf t.val p) k * aWg m c (ix2 k (colOf t.val q)) := by
  rw [PayAt.pay10_at, acc1_at m c (t.val - 1) _ p q]
  have e1 : (t.val - 1) % 4 + 1 = 3 := by omega
  have e2 : 4 * ((t.val - 1) / 4) = t.val - 3 := by omega
  have e3 : t.val - 3 + 3 = t.val := by omega
  have hlast : (∑ b : Fin 2048, xb m c t (ix2 p b) * wgb m c t (ix2 b q))
      = termAt (aX m c) (aH m c) (aWg m c) (t.val - 3 + 3) p q := by
    rw [e3]
    unfold termAt
    exact Finset.sum_congr rfl fun b _ => by rw [xb_at, wgb_at]
  rw [e1, e2, hlast, run_sum (aX m c) (aH m c) (aWg m c) (t.val - 3) (by omega) p q, e3]

/-! ## The input gate -/

/-- The input gate's accumulator after point n, at entry (p, q): zero plus the addends of the run's points up to n. -/
theorem acc2_at (c : Dev nD) (n : Nat) (hn : n < cfg0.N) (p q : Fin 512) :
    acc2 m c n hn (ix2 p q)
      = 0 + ∑ s ∈ Finset.range (n % 4 + 1), termAt (aX m c) (aH m c) (aWi m c) (4 * (n / 4) + s) p q := by
  have hfold := Value.soutsAt0_2_eq m c ⟨n, hn⟩
  have hacc : acc2 m c n hn = Pipeline.accAt (fun n h => Value.scAt0_2 m c n h (VS0_2.read (Elt Ideal) VS0_2.junk))
      (Value.scAt0_2 m c) (4 * (n / 4)) (n % 4) (by have h2 := Nat.div_add_mod n 4; omega) := hfold
  rw [hacc]
  exact fold_at (aX m c) (aH m c) (aWi m c) _ _ (4 * (n / 4)) (by omega)
    (fun h p q => by
      rw [Pieces.acc2_reset m c _ h (by omega), PayAt.pay11_at, PayAt.pay6_at]
      unfold termAt
      exact congrArg (0 + ·) (Finset.sum_congr rfl fun b _ => by rw [xb_at, wib_at]))
    (fun k h acc p q hk => by
      rw [Pieces.acc2_step m c k h hk, PayAt.pay11_at]
      unfold termAt
      exact congrArg (acc (ix2 p q) + ·) (Finset.sum_congr rfl fun b _ => by rw [xb_at, wib_at]))
    (n % 4) (by omega) _ p q

/-- At a run's last point the input gate's accumulator, once this point's step is added, holds the gate's whole
    inner product at the block's row and column. -/
theorem sum2_at (c : Dev nD) (t : Fin cfg0.N) (h1 : t.val % 4 = 3) (p q : Fin 512) :
    k0_pay11 (xb m c t) (acc2 m c (t.val - 1) (Nat.lt_of_le_of_lt (Nat.sub_le _ _) t.isLt)) (wib m c t) (ix2 p q)
      = ∑ k : Fin 8192, joined (aX m c) (aH m c) (rowOf t.val p) k * aWi m c (ix2 k (colOf t.val q)) := by
  rw [PayAt.pay11_at, acc2_at m c (t.val - 1) _ p q]
  have e1 : (t.val - 1) % 4 + 1 = 3 := by omega
  have e2 : 4 * ((t.val - 1) / 4) = t.val - 3 := by omega
  have e3 : t.val - 3 + 3 = t.val := by omega
  have hlast : (∑ b : Fin 2048, xb m c t (ix2 p b) * wib m c t (ix2 b q))
      = termAt (aX m c) (aH m c) (aWi m c) (t.val - 3 + 3) p q := by
    rw [e3]
    unfold termAt
    exact Finset.sum_congr rfl fun b _ => by rw [xb_at, wib_at]
  rw [e1, e2, hlast, run_sum (aX m c) (aH m c) (aWi m c) (t.val - 3) (by omega) p q, e3]

/-! ## The output gate -/

/-- The output gate's accumulator after point n, at entry (p, q): zero plus the addends of the run's points up to n. -/
theorem acc3_at (c : Dev nD) (n : Nat) (hn : n < cfg0.N) (p q : Fin 512) :
    acc3 m c n hn (ix2 p q)
      = 0 + ∑ s ∈ Finset.range (n % 4 + 1), termAt (aX m c) (aH m c) (aWo m c) (4 * (n / 4) + s) p q := by
  have hfold := Value.soutsAt0_3_eq m c ⟨n, hn⟩
  have hacc : acc3 m c n hn = Pipeline.accAt (fun n h => Value.scAt0_3 m c n h (VS0_3.read (Elt Ideal) VS0_3.junk))
      (Value.scAt0_3 m c) (4 * (n / 4)) (n % 4) (by have h2 := Nat.div_add_mod n 4; omega) := hfold
  rw [hacc]
  exact fold_at (aX m c) (aH m c) (aWo m c) _ _ (4 * (n / 4)) (by omega)
    (fun h p q => by
      rw [Pieces.acc3_reset m c _ h (by omega), PayAt.pay1_at, PayAt.pay7_at]
      unfold termAt
      exact congrArg (0 + ·) (Finset.sum_congr rfl fun b _ => by rw [xb_at, wob_at]))
    (fun k h acc p q hk => by
      rw [Pieces.acc3_step m c k h hk, PayAt.pay1_at]
      unfold termAt
      exact congrArg (acc (ix2 p q) + ·) (Finset.sum_congr rfl fun b _ => by rw [xb_at, wob_at]))
    (n % 4) (by omega) _ p q

/-- At a run's last point the output gate's accumulator, once this point's step is added, holds the gate's whole
    inner product at the block's row and column. -/
theorem sum3_at (c : Dev nD) (t : Fin cfg0.N) (h1 : t.val % 4 = 3) (p q : Fin 512) :
    k0_pay1 (k0_pay8 (xb m c t)) (acc3 m c (t.val - 1) (Nat.lt_of_le_of_lt (Nat.sub_le _ _) t.isLt)) (wob m c t) (ix2 p q)
      = ∑ k : Fin 8192, joined (aX m c) (aH m c) (rowOf t.val p) k * aWo m c (ix2 k (colOf t.val q)) := by
  rw [PayAt.pay1_at, acc3_at m c (t.val - 1) _ p q]
  have e1 : (t.val - 1) % 4 + 1 = 3 := by omega
  have e2 : 4 * ((t.val - 1) / 4) = t.val - 3 := by omega
  have e3 : t.val - 3 + 3 = t.val := by omega
  have hlast : (∑ b : Fin 2048, xb m c t (ix2 p b) * wob m c t (ix2 b q))
      = termAt (aX m c) (aH m c) (aWo m c) (t.val - 3 + 3) p q := by
    rw [e3]
    unfold termAt
    exact Finset.sum_congr rfl fun b _ => by rw [xb_at, wob_at]
  rw [e1, e2, hlast, run_sum (aX m c) (aH m c) (aWo m c) (t.val - 3) (by omega) p q, e3]

end Cert.KernelIdeal.Fold

end
-- ==== Proof.Final.lean ====
/-
  The two result arrays after the kernel's run are the cell of the specification.

  Only the last point of each run (point number ≡ 3 mod 4) writes its blocks back. What it writes to the new cell
  state, at entry (p, q) of the block, is  c · σ(f) + tanh(g) · σ(i)  with f, g, i the three gates' whole inner products
  plus their biases at row `rowOf t p` and column `colOf t q`: the specification's entry there; likewise the new
  hidden state. The 64 blocks written back tile the [4096, 4096] arrays, so each array ends holding the specification.
-/
import proofs.«175709_j704374636891_1_alg».proof.Proof.Fold

noncomputable section

open scoped BigOperators

namespace Cert.KernelIdeal.Final

open Cert.KernelIdeal Cert.KernelIdeal.Gen Cert.KernelIdeal.Nm Cert.KernelIdeal.Blocks Idealize.ShloMosaic Idealize.ShloMosaic.TcCoe
open Idealize.SL.Sem Idealize.ShloMosaic.ValueIdx Cert.Cell
open Idealize.ShloMosaic.Pipeline (Dat)

variable (m : (ℓ : Loc nD τ sig) → Buf (Elt Ideal) ℓ) (ρ : Dev nD → PrngReg)

/-- The new cell state of the specification, of this memory's arguments. -/
abbrev cellG (c : Dev nD) : Mat 4096 4096 :=
  cellOut (aX m c) (aH m c) (aC m c) (aWf m c) (aBf m c) (aWg m c) (aBg m c) (aWi m c) (aBi m c)

/-- The new hidden state of the specification, of this memory's arguments. -/
abbrev hiddenG (c : Dev nD) : Mat 4096 4096 :=
  hiddenOut (aX m c) (aH m c) (aC m c) (aWf m c) (aBf m c) (aWg m c) (aBg m c) (aWi m c) (aBi m c) (aWo m c) (aBo m c)

/-! ## The schedule: which points write back, and where their blocks sit -/

theorem flush10_iff : ∀ t : Fin cfg0.N, (cfg0.win 10).flush t = true ↔ t.val % 4 = 3 :=
  (by decide +kernel : ∀ t : Fin grid0.N, _)

theorem flush11_iff : ∀ t : Fin cfg0.N, (cfg0.win 11).flush t = true ↔ t.val % 4 = 3 :=
  (by decide +kernel : ∀ t : Fin grid0.N, _)

theorem idx10 : ∀ t : Fin cfg0.N, win0_10.index t (0 : Fin 2) = t.val / 32 % 8 ∧ win0_10.index t (1 : Fin 2) = t.val / 4 % 8 :=
  (by decide +kernel : ∀ t : Fin grid0.N, _)

theorem idx11 : ∀ t : Fin cfg0.N, win0_11.index t (0 : Fin 2) = t.val / 32 % 8 ∧ win0_11.index t (1 : Fin 2) = t.val / 4 % 8 :=
  (by decide +kernel : ∀ t : Fin grid0.N, _)

/-- The last point of the run that holds row block `r` and column block `s`. -/
def lastPoint (r s : Fin 8) : Fin cfg0.N := ⟨32 * r.val + 4 * s.val + 3, lt_of_lt_of_eq (by have := r.isLt; have := s.isLt; omega) N_0.symm⟩

/-! ## The new cell state -/

/-- The block a run's last point writes to the new cell state. -/
abbrev cellBlk (c : Dev nD) (t : Fin cfg0.N) : Vec Ideal S512x512 .f32 :=
  k0_pay2 (k0_pay9 (xb m c t) (acc0 m c (t.val - 1) (Nat.lt_of_le_of_lt (Nat.sub_le _ _) t.isLt)) (wfb m c t)) (bfb m c t)
      (k0_pay10 (xb m c t) (acc1 m c (t.val - 1) (Nat.lt_of_le_of_lt (Nat.sub_le _ _) t.isLt)) (wgb m c t)) (bgb m c t)
      (k0_pay11 (xb m c t) (acc2 m c (t.val - 1) (Nat.lt_of_le_of_lt (Nat.sub_le _ _) t.isLt)) (wib m c t)) (bib m c t)
      (cb m c t)

/-- Its entry (p, q) is the specification's entry at the block's row and column. -/
theorem cellBlk_at (c : Dev nD) (t : Fin cfg0.N) (h1 : t.val % 4 = 3) (p q : Fin 512) :
    cellBlk m c t (ix2 p q) = cellG m c (ix2 (rowOf t.val p) (colOf t.val q)) := by
  unfold cellBlk
  rw [PayAt.pay2_at, Fold.sum0_at m c t h1, Fold.sum1_at m c t h1, Fold.sum2_at m c t h1, bfb_at, bgb_at, bib_at, cb_at]
  rfl

/-- The block at an index of its own shape is the specification at the index the block's rectangle sends it to. -/
theorem cellBlk_emb (c : Dev nD) (t : Fin cfg0.N) (h1 : t.val % 4 = 3) (y : S512x512.Idx) :
    cellBlk m c t y = cellG m c (((cfg0.win 10).blk t).view.emb y) := by
  obtain ⟨p, q, rfl⟩ : ∃ (p q : Fin 512), y = ix2 p q := ⟨y 0, y 1, eq_ix2 y⟩
  have hemb : ((cfg0.win 10).blk t).view.emb (ix2 p q) = ix2 (rowOf t.val p) (colOf t.val q) := by
    obtain ⟨i0, i1⟩ := idx10 t
    funext a
    apply Fin.ext
    match a with
    | ⟨0, _⟩ => show win0_10.index t (0 : Fin 2) * 512 + 1 * p.val = 512 * (t.val / 32 % 8) + p.val; rw [i0]; omega
    | ⟨1, _⟩ => show win0_10.index t (1 : Fin 2) * 512 + 1 * q.val = 512 * (t.val / 4 % 8) + q.val; rw [i1]; omega
  rw [hemb]
  exact cellBlk_at m c t h1 p q

/-- What a point that writes back writes to the new cell state is its block of the specification. -/
theorem flushed10_eq (c : Dev nD) (t : Fin cfg0.N) (hf : (cfg0.win 10).flush t = true) :
    (dats m 0 c).flushed 10 t = ((cfg0.win 10).blk t).view.read (Elt Ideal) (cellG m c) := by
  have h1 : t.val % 4 = 3 := (flush10_iff t).mp hf
  rw [Pieces.cell_block m c t h1]
  funext y
  exact cellBlk_emb m c t h1 y

/-- An index of the array is in point t's block iff each coordinate is in the block's range on its axis. -/
theorem mem_blk10 (t : Fin cfg0.N) (i : S4096x4096.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v6_0).slice (win0_10.rect t)).set ↔ _
  rw [View.set_slice_whole, Rect.mem_set_unit]
  exact Iff.rfl

/-- Every index of the new cell state lies in the block some writing point writes. -/
theorem cover10 (i : S4096x4096.Idx) : ∃ t : Fin cfg0.N, (cfg0.win 10).flush t = true ∧ i ∈ ((cfg0.win 10).blk t).view.set := by
  have hi0 : (i 0).val < 4096 := (i 0).isLt
  have hi1 : (i 1).val < 4096 := (i 1).isLt
  refine ⟨lastPoint ⟨(i 0).val / 512, by omega⟩ ⟨(i 1).val / 512, by omega⟩, (flush10_iff _).mpr (by show (32 * ((i 0).val / 512) + 4 * ((i 1).val / 512) + 3) % 4 = 3; omega), ?_⟩
  rw [mem_blk10]
  obtain ⟨i0, i1⟩ := idx10 (lastPoint ⟨(i 0).val / 512, by omega⟩ ⟨(i 1).val / 512, by omega⟩)
  have v : (lastPoint ⟨(i 0).val / 512, by omega⟩ ⟨(i 1).val / 512, by omega⟩).val = 32 * ((i 0).val / 512) + 4 * ((i 1).val / 512) + 3 := rfl
  rw [v] at i0 i1
  intro a
  match a with
  | ⟨0, _⟩ => show win0_10.index _ (0 : Fin 2) * 512 ≤ (i 0).val ∧ (i 0).val < win0_10.index _ (0 : Fin 2) * 512 + 512; rw [i0]; omega
  | ⟨1, _⟩ => show win0_10.index _ (1 : Fin 2) * 512 ≤ (i 1).val ∧ (i 1).val < win0_10.index _ (1 : Fin 2) * 512 + 512; rw [i1]; omega

/-- The new cell state after the run. -/
theorem final10 (c : Dev nD) : (dats m 0 c).arrAt 10 cfg0.N = cellG m c :=
  (dats m 0 c).arrAt_eq_of_cover 10 (cellG m c) (flushed10_eq m c) cover10

/-! ## The new hidden state -/

/-- The block a run's last point writes to the new hidden state. -/
abbrev hiddenBlk (c : Dev nD) (t : Fin cfg0.N) : Vec Ideal S512x512 .f32 :=
  k0_pay3 (k0_pay9 (xb m c t) (acc0 m c (t.val - 1) (Nat.lt_of_le_of_lt (Nat.sub_le _ _) t.isLt)) (wfb m c t)) (bfb m c t)
      (k0_pay10 (xb m c t) (acc1 m c (t.val - 1) (Nat.lt_of_le_of_lt (Nat.sub_le _ _) t.isLt)) (wgb m c t)) (bgb m c t)
      (k0_pay11 (xb m c t) (acc2 m c (t.val - 1) (Nat.lt_of_le_of_lt (Nat.sub_le _ _) t.isLt)) (wib m c t)) (bib m c t)
      (k0_pay1 (k0_pay8 (xb m c t)) (acc3 m c (t.val - 1) (Nat.lt_of_le_of_lt (Nat.sub_le _ _) t.isLt)) (wob m c t)) (bob m c t)
      (cb m c t)

theorem hiddenBlk_at (c : Dev nD) (t : Fin cfg0.N) (h1 : t.val % 4 = 3) (p q : Fin 512) :
    hiddenBlk m c t (ix2 p q) = hiddenG m c (ix2 (rowOf t.val p) (colOf t.val q)) := by
  have hc := cellBlk_at m c t h1 p q
  unfold cellBlk at hc
  unfold hiddenBlk
  rw [PayAt.pay3_at, Fold.sum3_at m c t h1, bob_at, hc]
  rfl

theorem hiddenBlk_emb (c : Dev nD) (t : Fin cfg0.N) (h1 : t.val % 4 = 3) (y : S512x512.Idx) :
    hiddenBlk m c t y = hiddenG m c (((cfg0.win 11).blk t).view.emb y) := by
  obtain ⟨p, q, rfl⟩ : ∃ (p q : Fin 512), y = ix2 p q := ⟨y 0, y 1, eq_ix2 y⟩
  have hemb : ((cfg0.win 11).blk t).view.emb (ix2 p q) = ix2 (rowOf t.val p) (colOf t.val q) := by
    obtain ⟨i0, i1⟩ := idx11 t
    funext a
    apply Fin.ext
    match a with
    | ⟨0, _⟩ => show win0_11.index t (0 : Fin 2) * 512 + 1 * p.val = 512 * (t.val / 32 % 8) + p.val; rw [i0]; omega
    | ⟨1, _⟩ => show win0_11.index t (1 : Fin 2) * 512 + 1 * q.val = 512 * (t.val / 4 % 8) + q.val; rw [i1]; omega
  rw [hemb]
  exact hiddenBlk_at m c t h1 p q

theorem flushed11_eq (c : Dev nD) (t : Fin cfg0.N) (hf : (cfg0.win 11).flush t = true) :
    (dats m 0 c).flushed 11 t = ((cfg0.win 11).blk t).view.read (Elt Ideal) (hiddenG m c) := by
  have h1 : t.val % 4 = 3 := (flush11_iff t).mp hf
  rw [Pieces.hidden_block m c t h1]
  funext y
  exact hiddenBlk_emb m c t h1 y

theorem mem_blk11 (t : Fin cfg0.N) (i : S4096x4096.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v6_1).slice (win0_11.rect t)).set ↔ _
  rw [View.set_slice_whole, Rect.mem_set_unit]
  exact Iff.rfl

theorem cover11 (i : S4096x4096.Idx) : ∃ t : Fin cfg0.N, (cfg0.win 11).flush t = true ∧ i ∈ ((cfg0.win 11).blk t).view.set := by
  have hi0 : (i 0).val < 4096 := (i 0).isLt
  have hi1 : (i 1).val < 4096 := (i 1).isLt
  refine ⟨lastPoint ⟨(i 0).val / 512, by omega⟩ ⟨(i 1).val / 512, by omega⟩, (flush11_iff _).mpr (by show (32 * ((i 0).val / 512) + 4 * ((i 1).val / 512) + 3) % 4 = 3; omega), ?_⟩
  rw [mem_blk11]
  obtain ⟨i0, i1⟩ := idx11 (lastPoint ⟨(i 0).val / 512, by omega⟩ ⟨(i 1).val / 512, by omega⟩)
  have v : (lastPoint ⟨(i 0).val / 512, by omega⟩ ⟨(i 1).val / 512, by omega⟩).val = 32 * ((i 0).val / 512) + 4 * ((i 1).val / 512) + 3 := rfl
  rw [v] at i0 i1
  intro a
  match a with
  | ⟨0, _⟩ => show win0_11.index _ (0 : Fin 2) * 512 ≤ (i 0).val ∧ (i 0).val < win0_11.index _ (0 : Fin 2) * 512 + 512; rw [i0]; omega
  | ⟨1, _⟩ => show win0_11.index _ (1 : Fin 2) * 512 ≤ (i 1).val ∧ (i 1).val < win0_11.index _ (1 : Fin 2) * 512 + 512; rw [i1]; omega

/-- The new hidden state after the run. -/
theorem final11 (c : Dev nD) : (dats m 0 c).arrAt 11 cfg0.N = hiddenG m c :=
  (dats m 0 c).arrAt_eq_of_cover 11 (hiddenG m c) (flushed11_eq m c) cover11

/-! ## The run, read -/

/-- Every weakly fair execution of the kernel's program terminates with the two results at the specification's cell
    and hidden state of the arguments, the arguments unchanged. -/
theorem run : θ_run defs (onTc (τ := τ) (main (F := Ideal))) ⟨m, fun _ => 0, ρ⟩ fun r => ∀ c : Dev nD,
      r.2.mem ((c : Thread nD τ).loc main_v6_0) = cellG m c
      ∧ r.2.mem ((c : Thread nD τ).loc main_v6_1) = hiddenG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2.1.trans (final11 m c), (h c).2.2⟩)
    (Value.run_blocks m ρ)

end Cert.KernelIdeal.Final

end
-- ==== Proof.RefSide.lean ====
/-
  The reference computes the cell of the specification.

  The reference sets the four weight matrices side by side into one [8192, 16384] matrix and the four bias rows end to
  end into one row of 16384, takes ONE product of the joined activation with the wide matrix, adds the long bias row
  to every row, and cuts the sum back into four [4096, 4096] pre-activations. Column c of gate g's cut is column
  4096 · g + c of the wide matrix, which is column c of gate g's own weights, and likewise for the bias: so each cut is
  that gate's pre-activation. The reference's logistic function is spelt 1 / (1 + exp (−z)), which is the logistic
  function of the extended reals by definition.
-/
import proofs.«175709_j704374636891_1_alg».proof.Proof.Gen.ReferenceIdeal.Read
import proofs.«175709_j704374636891_1_alg».proof.Proof.Spec
import proofs.«175709_j704374636891_1_alg».proof.Proof.LibDot
import Idealize.ShloMosaic.Lib.ValueIdx
import Idealize.ShloMosaic.Lib.Pipeline.Value
import Idealize.ShloMosaic.PureOps.Ideal.Laws

noncomputable section

open scoped BigOperators

namespace Cert.ReferenceIdeal.Bridge

open Cert.ReferenceIdeal Cert.ReferenceIdeal.Gen Cert.ReferenceIdeal.Read Idealize.ShloMosaic Idealize.ShloMosaic.TcCoe
open Idealize.ShloMosaic.ValueIdx Cert.Cell

/-- The word of the reference's constant is the number one. -/
private theorem one_word : (Ideal.ofBits .f32 0x3F800000#32 : EReal) = 1 := by
  simp [Ideal.ofBits, Ideal.ieee, -EReal.coe_mul]; norm_num

/-- The activation and the hidden state set side by side, read at row r and column k. -/
private theorem joined_read (x0 x1 : (⟨S4096x4096, .f32⟩ : BufTy).Contents (Elt Ideal)) (j : S4096x8192.Idx)
    (r : Fin 4096) (k : Fin 8192) (h0 : (j 0).val = r.val) (h1 : (j 1).val = k.val) :
    val_main_v0 (F := Ideal) x0 x1 j = joined x0 x1 r k := by
  unfold val_main_v0 joined
  by_cases hk : k.val < 4096
  · rw [dif_pos hk]
    exact concatenate_pair_apply_left (t := S4096x8192) (s₁ := S4096x4096) (s₂ := S4096x4096) 1 x0 x1 _ j rfl
      (ix2 r ⟨k.val, hk⟩) (fun b => by
        match b with
        | ⟨0, _⟩ => exact h0.symm
        | ⟨1, _⟩ => exact h1.symm)
  · rw [dif_neg hk]
    exact concatenate_pair_apply_right (t := S4096x8192) (s₁ := S4096x4096) (s₂ := S4096x4096) 1 x0 x1 _ j rfl rfl
      (ix2 r ⟨k.val - 4096, by have := k.isLt; omega⟩)
      (fun b hb => by
        match b with
        | ⟨0, _⟩ => exact h0.symm
        | ⟨1, _⟩ => exact absurd rfl hb)
      (by show k.val - 4096 + 4096 = (j 1).val; omega)

/-- The four weight matrices set side by side, read at row k and column 4096 · g + c: gate g's own entry (k, c). -/
private theorem wide_read (x3 x5 x7 x9 : (⟨S8192x4096, .f32⟩ : BufTy).Contents (Elt Ideal)) (j : S8192x16384.Idx)
    (g : Fin 4) (k : Fin 8192) (c : Fin 4096) (h0 : (j 0).val = k.val) (h1 : (j 1).val = 4096 * g.val + c.val) :
    val_main_v1 (F := Ideal) x3 x5 x7 x9 j = (![x3, x5, x7, x9] g) (ix2 k c) := by
  unfold val_main_v1
  have hc := c.isLt
  exact concatenate_ofFn_apply (t := S8192x16384) (s₁ := S8192x4096) 1 (![x3, x5, x7, x9]) _ rfl 4096 rfl j g
    (by show (j 1).val / 4096 = g.val; omega) (ix2 k c)
    (by show c.val = (j 1).val % 4096; omega)
    (fun b hb => by
      match b with
      | ⟨0, _⟩ => exact h0.symm
      | ⟨1, _⟩ => exact absurd rfl hb)

/-- The four bias rows set end to end, read at 4096 · g + c: gate g's own entry c. -/
private theorem bias_read (x4 x6 x8 x10 : (⟨S4096, .f32⟩ : BufTy).Contents (Elt Ideal)) (j : S16384.Idx)
    (g : Fin 4) (c : Fin 4096) (h0 : (j 0).val = 4096 * g.val + c.val) :
    val_main_v2 (F := Ideal) x4 x6 x8 x10 j = (![x4, x6, x8, x10] g) (ix1 c) := by
  unfold val_main_v2
  have hc := c.isLt
  exact concatenate_ofFn_apply (t := S16384) (s₁ := S4096) 0 (![x4, x6, x8, x10]) _ rfl 4096 rfl j g
    (by show (j 0).val / 4096 = g.val; omega) (ix1 c)
    (by show c.val = (j 0).val % 4096; omega)
    (fun b hb => by
      match b with
      | ⟨0, _⟩ => exact absurd rfl hb)

/-- The one wide product plus the long bias row, read at row r and column 4096 · g + c, is gate g's pre-activation
    at (r, c): the sum over k pairs the joined activation at (r, k) with gate g's weight at (k, c), and the bias row
    gives gate g's entry c. -/
private theorem gate_read (x0 x1 : (⟨S4096x4096, .f32⟩ : BufTy).Contents (Elt Ideal))
    (x3 : (⟨S8192x4096, .f32⟩ : BufTy).Contents (Elt Ideal)) (x4 : (⟨S4096, .f32⟩ : BufTy).Contents (Elt Ideal))
    (x5 : (⟨S8192x4096, .f32⟩ : BufTy).Contents (Elt Ideal)) (x6 : (⟨S4096, .f32⟩ : BufTy).Contents (Elt Ideal))
    (x7 : (⟨S8192x4096, .f32⟩ : BufTy).Contents (Elt Ideal)) (x8 : (⟨S4096, .f32⟩ : BufTy).Contents (Elt Ideal))
    (x9 : (⟨S8192x4096, .f32⟩ : BufTy).Contents (Elt Ideal)) (x10 : (⟨S4096, .f32⟩ : BufTy).Contents (Elt Ideal))
    (g : Fin 4) (r c : Fin 4096) (i : S4096x16384.Idx) (h0 : (i 0).val = r.val) (h1 : (i 1).val = 4096 * g.val + c.val) :
    val_main_v6 (F := Ideal) x0 x1 x3 x4 x5 x6 x7 x8 x9 x10 i
      = pre x0 x1 (![x3, x5, x7, x9] g) (![x4, x6, x8, x10] g) r c := by
  rw [val_main_v6_apply, val_main_v3_apply, val_main_v5_apply, val_main_v4_apply,
    bias_read x4 x6 x8 x10 _ g c h1, Ideal.addf_def]
  unfold pre
  refine congrArg (· + _) (Finset.sum_congr rfl fun k _ => ?_)
  rw [joined_read x0 x1 _ r k h0 rfl, wide_read x3 x5 x7 x9 _ g k c rfl h1]

/-- The reference's spelling of the logistic function, 1 / (1 + exp (−z)) with the constant given by its word. -/
private theorem logistic_spelt (z : EReal) :
    Ideal.div (Ideal.ofBits .f32 0x3F800000#32) (Ideal.ofBits .f32 0x3F800000#32 + Ideal.exp (-z)) = Ideal.logistic z := by
  rw [one_word]; rfl

/-- The new cell state of the reference at (r, c), with the four cuts of the wide sum named as pre-activations. -/
private theorem cell_at (x0 x1 x2 : (⟨S4096x4096, .f32⟩ : BufTy).Contents (Elt Ideal))
    (x3 : (⟨S8192x4096, .f32⟩ : BufTy).Contents (Elt Ideal)) (x4 : (⟨S4096, .f32⟩ : BufTy).Contents (Elt Ideal))
    (x5 : (⟨S8192x4096, .f32⟩ : BufTy).Contents (Elt Ideal)) (x6 : (⟨S4096, .f32⟩ : BufTy).Contents (Elt Ideal))
    (x7 : (⟨S8192x4096, .f32⟩ : BufTy).Contents (Elt Ideal)) (x8 : (⟨S4096, .f32⟩ : BufTy).Contents (Elt Ideal))
    (x9 : (⟨S8192x4096, .f32⟩ : BufTy).Contents (Elt Ideal)) (x10 : (⟨S4096, .f32⟩ : BufTy).Contents (Elt Ideal))
    (r c : Fin 4096) :
    val_main_v32 (F := Ideal) x0 x1 x2 x3 x4 x5 x6 x7 x8 x9 x10 (ix2 r c) = cellAt x0 x1 x2 x3 x4 x5 x6 x7 x8 r c := by
  have hc := c.isLt
  rw [val_main_v32_apply, val_main_v30_apply, val_main_v31_apply,
    val_main_v16_apply, val_main_v15_apply, val_main_cst_0_apply, val_main_v14_apply, val_main_v13_apply,
    val_main_cst_apply, val_main_v12_apply, val_main_v11_apply, val_main_v7_apply,
    val_main_v17_apply, val_main_v8_apply,
    val_main_v23_apply, val_main_v22_apply, val_main_cst_2_apply, val_main_v21_apply, val_main_v20_apply,
    val_main_cst_1_apply, val_main_v19_apply, val_main_v18_apply, val_main_v9_apply,
    gate_read x0 x1 x3 x4 x5 x6 x7 x8 x9 x10 0 r c (idx_main_v7 (ix2 r c)) rfl (by show c.val = 4096 * 0 + c.val; omega),
    gate_read x0 x1 x3 x4 x5 x6 x7 x8 x9 x10 1 r c (idx_main_v8 (ix2 r c)) rfl (by show 4096 + c.val = 4096 * 1 + c.val; omega),
    gate_read x0 x1 x3 x4 x5 x6 x7 x8 x9 x10 2 r c (idx_main_v9 (ix2 r c)) rfl (by show 8192 + c.val = 4096 * 2 + c.val; omega)]
  simp only [Ideal.hostDivf_def, Ideal.hostUnary_exp_def, Ideal.hostUnary_tanh_def, Ideal.hostNegf_def, Ideal.negf_def,
    Ideal.addf_def, Ideal.mulf_def, Ideal.ofBits_def, logistic_spelt]
  rfl

/-- The reference's first result is the new cell state of the specification. -/
theorem cell_eq (x0 x1 x2 : (⟨S4096x4096, .f32⟩ : BufTy).Contents (Elt Ideal)) (x3 : (⟨S8192x4096, .f32⟩ : BufTy).Contents (Elt Ideal))
    (x4 : (⟨S4096, .f32⟩ : BufTy).Contents (Elt Ideal)) (x5 : (⟨S8192x4096, .f32⟩ : BufTy).Contents (Elt Ideal))
    (x6 : (⟨S4096, .f32⟩ : BufTy).Contents (Elt Ideal)) (x7 : (⟨S8192x4096, .f32⟩ : BufTy).Contents (Elt Ideal))
    (x8 : (⟨S4096, .f32⟩ : BufTy).Contents (Elt Ideal)) (x9 : (⟨S8192x4096, .f32⟩ : BufTy).Contents (Elt Ideal))
    (x10 : (⟨S4096, .f32⟩ : BufTy).Contents (Elt Ideal)) :
    val_main_v32 (F := Ideal) x0 x1 x2 x3 x4 x5 x6 x7 x8 x9 x10 = cellOut x0 x1 x2 x3 x4 x5 x6 x7 x8 := by
  funext j
  obtain ⟨r, c, rfl⟩ : ∃ (r c : Fin 4096), j = ix2 r c := ⟨j 0, j 1, eq_ix2 j⟩
  exact cell_at x0 x1 x2 x3 x4 x5 x6 x7 x8 x9 x10 r c

/-- The reference's second result is the new hidden state of the specification. -/
theorem hidden_eq (x0 x1 x2 : (⟨S4096x4096, .f32⟩ : BufTy).Contents (Elt Ideal)) (x3 : (⟨S8192x4096, .f32⟩ : BufTy).Contents (Elt Ideal))
    (x4 : (⟨S4096, .f32⟩ : BufTy).Contents (Elt Ideal)) (x5 : (⟨S8192x4096, .f32⟩ : BufTy).Contents (Elt Ideal))
    (x6 : (⟨S4096, .f32⟩ : BufTy).Contents (Elt Ideal)) (x7 : (⟨S8192x4096, .f32⟩ : BufTy).Contents (Elt Ideal))
    (x8 : (⟨S4096, .f32⟩ : BufTy).Contents (Elt Ideal)) (x9 : (⟨S8192x4096, .f32⟩ : BufTy).Contents (Elt Ideal))
    (x10 : (⟨S4096, .f32⟩ : BufTy).Contents (Elt Ideal)) :
    val_main_v34 (F := Ideal) x0 x1 x2 x3 x4 x5 x6 x7 x8 x9 x10 = hiddenOut x0 x1 x2 x3 x4 x5 x6 x7 x8 x9 x10 := by
  funext j
  obtain ⟨r, c, rfl⟩ : ∃ (r c : Fin 4096), j = ix2 r c := ⟨j 0, j 1, eq_ix2 j⟩
  have hc := c.isLt
  rw [val_main_v34_apply, val_main_v33_apply, cell_at x0 x1 x2 x3 x4 x5 x6 x7 x8 x9 x10 r c,
    val_main_v29_apply, val_main_v28_apply, val_main_cst_4_apply, val_main_v27_apply, val_main_v26_apply,
    val_main_cst_3_apply, val_main_v25_apply, val_main_v24_apply, val_main_v10_apply,
    gate_read x0 x1 x3 x4 x5 x6 x7 x8 x9 x10 3 r c (idx_main_v10 (ix2 r c)) rfl (by show 12288 + c.val = 4096 * 3 + c.val; omega)]
  simp only [Ideal.hostDivf_def, Ideal.hostUnary_exp_def, Ideal.hostUnary_tanh_def, Ideal.hostNegf_def, Ideal.negf_def,
    Ideal.addf_def, Ideal.mulf_def, Ideal.ofBits_def, logistic_spelt]
  rfl

end Cert.ReferenceIdeal.Bridge

end
-- ==== Proof.lean ====
/-
  One step of a long short-term memory cell, computed two ways, gives the same two results over the extended reals.

  The kernel walks an 8 × 8 × 4 grid. For each of the 64 blocks of 512 rows by 512 columns it accumulates, in four steps
  of 2048 along the shared axis of length 8192, the four gates' products of the joined activation [x, h] with the
  gates' weights, starting from zero; at the fourth step it adds each gate's bias, applies the logistic function to
  the forget, input and output gates and the hyperbolic tangent to the candidate gate, and writes
  c · σ(f) + tanh(g) · σ(i)  and  tanh(that) · σ(o)  to the block of the two results. The reference sets the four weight
  matrices side by side, takes one product over all 8192 positions, adds the four biases set end to end, cuts the
  sum back into the four gates and applies the same functions, the logistic function spelt 1 / (1 + exp (−z)).

  The two agree entry by entry: a sum of 8192 extended reals is the sum of its four consecutive blocks of 2048 taken in
  order from zero, because addition of extended reals is commutative and associative (nothing of the inputs'
  finiteness is used); a change of number format is the identity on the extended reals; and 1 / (1 + exp (−z)) is the
  logistic function there by definition. The blocks written back tile the two [4096, 4096] results.

  The three programs terminate without fault and leave their arguments unchanged: the kernel's two readings by their
  frames, the reference by its run with the results dropped. The idealized kernel is the kernel's own text read over
  the extended reals: no operation was rewritten, so there is nothing to preserve.
-/
import proofs.«175709_j704374636891_1_alg».proof.Defs
import proofs.«175709_j704374636891_1_alg».proof.Proof.Gen.Kernel
import proofs.«175709_j704374636891_1_alg».proof.Proof.Gen.Kernel.Frame
import proofs.«175709_j704374636891_1_alg».proof.Proof.Gen.KernelIdeal
import proofs.«175709_j704374636891_1_alg».proof.Proof.Gen.KernelIdeal.Frame
import proofs.«175709_j704374636891_1_alg».proof.Proof.Gen.KernelIdeal.Value
import proofs.«175709_j704374636891_1_alg».proof.Proof.Gen.ReferenceIdeal
import proofs.«175709_j704374636891_1_alg».proof.Proof.Gen.ReferenceIdeal.Run
import proofs.«175709_j704374636891_1_alg».proof.Proof.Gen.ReferenceIdeal.Read
import proofs.«175709_j704374636891_1_alg».proof.Proof.Gen.Pre_finite_inputs
import proofs.«175709_j704374636891_1_alg».proof.Proof.Final
import proofs.«175709_j704374636891_1_alg».proof.Proof.RefSide
import Idealize.ShloMosaic.Adequacy
import Idealize.ShloMosaic.Init

noncomputable section

namespace Cert.Proof

open Idealize.ShloMosaic Idealize.SL.Sem

/-- The kernel, read at the word level, runs and leaves its arguments unchanged. -/
theorem frame_kernel : Cert.frame_Kernel := fun m ρ _ => Cert.Kernel.Gen.frame m ρ

/-- The kernel, read over the extended reals, runs and leaves its arguments unchanged. -/
theorem frame_kernelIdeal : Cert.frame_KernelIdeal := fun m ρ _ => Cert.KernelIdeal.Gen.frame m ρ

/-- The reference runs and leaves its arguments unchanged: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for its reading over the extended reals. -/
theorem preserves : Cert.preserves_Kernel_KernelIdeal := trivial

/-- From memories that agree on the eleven arguments both programs end with the new cell state and the new hidden
    state of the specification, of those arguments. -/
theorem algebraic : Cert.algebraic_KernelIdeal_ReferenceIdeal := by
  intro m ρ m' ρ' _ hagree
  refine ⟨fun c => Cert.KernelIdeal.Final.cellG m c, fun c => Cert.KernelIdeal.Final.hiddenG m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7, e8, e9, e10⟩ := hagree c
    refine (h c).1.trans ?_
    rw [Cert.ReferenceIdeal.Read.val_main_v32_eq, Cert.ReferenceIdeal.Bridge.cell_eq, e0, e1, e2, e3, e4, e5, e6, e7, e8]
  · obtain ⟨e0, e1, e2, e3, e4, e5, e6, e7, e8, e9, e10⟩ := hagree c
    refine (h c).2.1.trans ?_
    rw [Cert.ReferenceIdeal.Read.val_main_v34_eq, Cert.ReferenceIdeal.Bridge.hidden_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
